-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S4096x128 : Shape := ⟨2, ![4096, 128]⟩
abbrev S4096 : Shape := ⟨1, ![4096]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S64x4096x128 .f32) (main_arg1 : FVec F S4096x128 .f32) (main_arg2 : FVec F S4096 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S64x4096x128 : Shape := ⟨3, ![64, 4096, 128]⟩
abbrev S4096x128 : Shape := ⟨2, ![4096, 128]⟩
abbrev S4096 : Shape := ⟨1, ![4096]⟩
abbrev S64x524288 : Shape := ⟨2, ![64, 524288]⟩
abbrev S1x524288 : Shape := ⟨2, ![1, 524288]⟩
abbrev S2x64x64 : Shape := ⟨3, ![2, 64, 64]⟩
abbrev S2x64x1 : Shape := ⟨3, ![2, 64, 1]⟩
abbrev S2x1x1 : Shape := ⟨3, ![2, 1, 1]⟩
abbrev S64x16384 : Shape := ⟨2, ![64, 16384]⟩
abbrev S1x16384 : Shape := ⟨2, ![1, 16384]⟩
abbrev S1x64x64 : Shape := ⟨3, ![1, 64, 64]⟩
abbrev S1x64x1 : Shape := ⟨3, ![1, 64, 1]⟩
abbrev S1x1x1 : Shape := ⟨3, ![1, 1, 1]⟩
abbrev S64x64 : Shape := ⟨2, ![64, 64]⟩
abbrev S64x1 : Shape := ⟨2, ![64, 1]⟩
abbrev S1x1 : Shape := ⟨2, ![1, 1]⟩
abbrev S64 : Shape := ⟨1, ![64]⟩
abbrev S1 : Shape := ⟨1, ![1]⟩
abbrev S1x64 : Shape := ⟨2, ![1, 64]⟩
abbrev S_ : Shape := ⟨0, ![]⟩

abbrev nBuf : Space → Nat
  | .hbm => 10
  | .vmem => 14
  | .smem => 0
  | _ => 0

abbrev bufTy : (tb : Table) → Fin (tcTables nBuf tb) → BufTy
  | .hbm, ⟨0, _⟩ => ⟨S64x4096x128, .f32⟩
  | .hbm, ⟨1, _⟩ => ⟨S4096x128, .f32⟩
  | .hbm, ⟨2, _⟩ => ⟨S4096, .f32⟩
  | .hbm, ⟨3, _⟩ => ⟨S64x524288, .f32⟩
  | .hbm, ⟨4, _⟩ => ⟨S1x524288, .f32⟩
  | .hbm, ⟨5, _⟩ => ⟨S2x64x64, .f32⟩
  | .hbm, ⟨6, _⟩ => ⟨S2x64x1, .f32⟩
  | .hbm, ⟨7, _⟩ => ⟨S2x1x1, .f32⟩
  | .hbm, ⟨8, _⟩ => ⟨S1x1, .f32⟩
  | .hbm, ⟨9, _⟩ => ⟨S_, .f32⟩
  | .local _ .vmem, ⟨0, _⟩ => ⟨S64x16384, .f32⟩
  | .local _ .vmem, ⟨1, _⟩ => ⟨S64x16384, .f32⟩
  | .local _ .vmem, ⟨2, _⟩ => ⟨S1x16384, .f32⟩
  | .local _ .vmem, ⟨3, _⟩ => ⟨S1x16384, .f32⟩
  | .local _ .vmem, ⟨4, _⟩ => ⟨S1x64x64, .f32⟩
  | .local _ .vmem, ⟨5, _⟩ => ⟨S1x64x64, .f32⟩
  | .local _ .vmem, ⟨6, _⟩ => ⟨S1x64x1, .f32⟩
  | .local _ .vmem, ⟨7, _⟩ => ⟨S1x64x1, .f32⟩
  | .local _ .vmem, ⟨8, _⟩ => ⟨S1x1x1, .f32⟩
  | .local _ .vmem, ⟨9, _⟩ => ⟨S1x1x1, .f32⟩
  | .local _ .vmem, ⟨10, _⟩ => ⟨S2x64x64, .f32⟩
  | .local _ .vmem, ⟨11, _⟩ => ⟨S2x64x1, .f32⟩
  | .local _ .vmem, ⟨12, _⟩ => ⟨S2x1x1, .f32⟩
  | .local _ .vmem, ⟨13, _⟩ => ⟨S1x1, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x64x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  shapeCasts_S64x4096x128_S64x524288 : S64x4096x128.ShapeCasts S64x524288
  shapeCasts_S4096x128_S1x524288 : S4096x128.ShapeCasts S1x524288
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  bitsLt_bf16_f32 : FTy.bits .bf16 < FTy.bits .f32
  broadcasts_S1x16384_S64x16384 : S1x16384.Broadcasts S64x16384
  reduces_S64x16384_S64 : S64x16384.Reduces [1] S64
  shapeCasts_S64_S64x1 : S64.ShapeCasts S64x1
  reduces_S1x16384_S1 : S1x16384.Reduces [1] S1
  shapeCasts_S1_S1x1 : S1.ShapeCasts S1x1
  inb_S2x64x64_S1x64x64_0_0_0 : ∀ a, (![0, 0, 0] : Fin 3 → Nat) a + S1x64x64.size a ≤ S2x64x64.size a
  inb_S2x64x64_S1x64x64_1_0_0 : ∀ a, (![1, 0, 0] : Fin 3 → Nat) a + S1x64x64.size a ≤ S2x64x64.size a
  inb_S2x64x1_S1x64x1_0_0_0 : ∀ a, (![0, 0, 0] : Fin 3 → Nat) a + S1x64x1.size a ≤ S2x64x1.size a
  inb_S2x64x1_S1x64x1_1_0_0 : ∀ a, (![1, 0, 0] : Fin 3 → Nat) a + S1x64x1.size a ≤ S2x64x1.size a
  inb_S2x1x1_S1x1x1_0_0_0 : ∀ a, (![0, 0, 0] : Fin 3 → Nat) a + S1x1x1.size a ≤ S2x1x1.size a
  inb_S2x1x1_S1x1x1_1_0_0 : ∀ a, (![1, 0, 0] : Fin 3 → Nat) a + S1x1x1.size a ≤ S2x1x1.size a
  iota_S64x64_d0_w32 : S64x64.Iotas .tc 32 [0]
  iota_S64x64_d1_w32 : S64x64.Iotas .tc 32 [1]
  reduces_S64x64_S64 : S64x64.Reduces [1] S64
  transposes_S64x1_p1_0_S1x64 : S64x1.Transposes [1, 0] S1x64
  broadcasts_S64x1_S64x64 : S64x1.Broadcasts S64x64
  broadcasts_S1x64_S64x64 : S1x64.Broadcasts S64x64
  reduces_S64x1_S1 : S64x1.Reduces [0] S1
  broadcasts_S1x1_S64x1 : S1x1.Broadcasts S64x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S64x16384_S64x16384_S64x64_1_1_0_0_n_n_wf : DotDims.WF S64x16384 S64x16384 S64x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S64x524288.size a
  hwx0_0 : ∀ i : grid0.Coords, EltTy.bits .f32 = 32 ∨ (Rect.block (s := S64x524288) S64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x524288.size a
  hwx0_1 : ∀ i : grid0.Coords, EltTy.bits .f32 = 32 ∨ (Rect.block (s := S1x524288) S1x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S2x64x64.size a
  hwx0_2 : ∀ i : grid0.Coords, EltTy.bits .f32 = 32 ∨ (Rect.block (s := S2x64x64) S1x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S2x64x1.size a
  hwx0_3 : ∀ i : grid0.Coords, EltTy.bits .f32 = 32 ∨ (Rect.block (s := S2x64x1) S1x64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x64x64.size a ≤ S2x64x64.size a
  hwx1_0 : ∀ i : grid1.Coords, EltTy.bits .f32 = 32 ∨ (Rect.block (s := S2x64x64) S2x64x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x64x1.size a ≤ S2x64x1.size a
  hwx1_1 : ∀ i : grid1.Coords, EltTy.bits .f32 = 32 ∨ (Rect.block (s := S2x64x1) S2x64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x1x1.size a ≤ S2x1x1.size a
  hwx1_2 : ∀ i : grid1.Coords, EltTy.bits .f32 = 32 ∨ (Rect.block (s := S2x1x1) S2x1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S64x16384_S64x16384_S64x64_1_1_0_0_n_n : DotDims S64x16384 S64x16384 S64x64 where
  lhsContracting := [1]
  rhsContracting := [1]
  lhsNonContracting := [0]
  rhsNonContracting := [0]
  lhsBatch := []
  rhsBatch := []
  wf := dot_S64x16384_S64x16384_S64x64_1_1_0_0_n_n_wf

abbrev win0_0 : Pipeline.Window sig grid0 :=
  Pipeline.Window.ofSpec (Memref.whole main_v0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x64x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x64x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S2x64x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S2x64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S2x1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x4096x128 : Shape := ⟨3, ![64, 4096, 128]⟩
abbrev S4096x128 : Shape := ⟨2, ![4096, 128]⟩
abbrev S4096 : Shape := ⟨1, ![4096]⟩
abbrev S64x524288 : Shape := ⟨2, ![64, 524288]⟩
abbrev S524288 : Shape := ⟨1, ![524288]⟩
abbrev S_ : Shape := ⟨0, ![]⟩
abbrev S64 : Shape := ⟨1, ![64]⟩
abbrev S524288x64 : Shape := ⟨2, ![524288, 64]⟩
abbrev S64x64 : Shape := ⟨2, ![64, 64]⟩
abbrev S64x1 : Shape := ⟨2, ![64, 1]⟩
abbrev S1x64 : Shape := ⟨2, ![1, 64]⟩
abbrev S1x524288 : Shape := ⟨2, ![1, 524288]⟩

abbrev nBuf : Space → Nat
  | .hbm => 65
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S4096x128, .f32⟩
  | .hbm, ⟨2, _⟩ => ⟨S4096, .f32⟩
  | .hbm, ⟨3, _⟩ => ⟨S64x524288, .f32⟩
  | .hbm, ⟨4, _⟩ => ⟨S524288, .f32⟩
  | .hbm, ⟨5, _⟩ => ⟨S64x524288, .f32⟩
  | .hbm, ⟨6, _⟩ => ⟨S_, .f32⟩
  | .hbm, ⟨7, _⟩ => ⟨S64, .f32⟩
  | .hbm, ⟨8, _⟩ => ⟨S524288x64, .f32⟩
  | .hbm, ⟨9, _⟩ => ⟨S64x64, .f32⟩
  | .hbm, ⟨10, _⟩ => ⟨S64x1, .f32⟩
  | .hbm, ⟨11, _⟩ => ⟨S1x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S_, .f32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i32⟩
  | .hbm, ⟨33, _⟩ => ⟨S64x64, .i1⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x524288, .f32⟩
  | .hbm, ⟨45, _⟩ => ⟨S64x524288, .f32⟩
  | .hbm, ⟨46, _⟩ => ⟨S64x524288, .f32⟩
  | .hbm, ⟨47, _⟩ => ⟨S64x524288, .f32⟩
  | .hbm, ⟨48, _⟩ => ⟨S_, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_c : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_cst : Ref sig .tc := ⟨.hbm, 34, rfl⟩
abbrev main_call0_v5 : Ref sig .tc := ⟨.hbm, 35, rfl⟩
abbrev main_call0_v6 : Ref sig .tc := ⟨.hbm, 36, rfl⟩
abbrev main_call0_cst_0 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_v34 : Ref sig .tc := ⟨.hbm, 58, rfl⟩
abbrev main_cst_10 : Ref sig .tc := ⟨.hbm, 59, rfl⟩
abbrev main_cst_11 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v35 : Ref sig .tc := ⟨.hbm, 64, rfl⟩

abbrev nD : Nat := 1
abbrev τ : Topo := Topo.v7x

variable {F : FTy → Type} [FloatOps F]

class Facts₀ : Prop where
  shapeCasts_S64x4096x128_S64x524288 : S64x4096x128.ShapeCasts S64x524288
  shapeCasts_S4096x128_S524288 : S4096x128.ShapeCasts S524288
  reducesTo_S64x524288_S64_d1 : S64x524288.ReducesTo [1] S64
  h_S_ : 0 < S_.numel
  transposes_S64x524288_S524288x64_1_0 : S64x524288.Transposes [1, 0] S524288x64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  reducesTo_S64x64_S_d0_1 : S64x64.ReducesTo [0, 1] S_
  bcast_S524288_S1x524288_1 : S524288.BroadcastsInDim S1x524288 (![1] : Fin 1 → Fin S1x524288.rank)
  bcast_S1x524288_S64x524288_0_1 : S1x524288.BroadcastsInDim S64x524288 (![0, 1] : Fin 2 → Fin S64x524288.rank)
  bcast_S_S64 : S_.BroadcastsInDim S64 (![] : Fin 0 → Fin S64.rank)
  reducesTo_S64_S_d0 : S64.ReducesTo [0] S_
  dot_S64x524288_S524288x64_S64x64_1_0_0_1_n_n_wf : DotDims.WF S64x524288 S524288x64 S64x64 [1] [0] [0] [1] [] []

variable [Facts₀]

def dot_S64x524288_S524288x64_S64x64_1_0_0_1_n_n : DotDims S64x524288 S524288x64 S64x64 where
  lhsContracting := [1]
  rhsContracting := [0]
  lhsNonContracting := [0]
  rhsNonContracting := [1]
  lhsBatch := []
  rhsBatch := []
  wf := dot_S64x524288_S524288x64_S64x64_1_0_0_1_n_n_wf

class Facts : Prop extends Facts₀ where

variable [Facts]
-- ==== Proof.Spec.lean ====
/-
  The mathematics both programs compute, stated once over plain index types and the extended reals.

  The data: 64 rows `X i` of length 524288 (the samples, flattened) and one row `t` of the same length (the
  target, flattened). From them
    * the Gram matrix `G i j = ∑ k, X i k * X j k` (its diagonal holds the rows' squared norms),
    * the inner products `∑ k, X i k * t k` and the target's squared norm `∑ k, t k * t k`,
    * the pairwise kernel `exp (-(max (G i i + G j j - 2 G i j) 0))`, its sum off the diagonal scaled by
      `1/4` and divided by `64·63 = 4032` (`cross`),
    * the kernel against the target, `exp (-D i)` averaged over the 64 rows (`target`), where `D i` is the
      squared distance of row `i` to the target — written either expanded, `max (G i i - 2 ⟨X i, t⟩ + ⟨t, t⟩) 0`
      (`distExpanded`), or directly, `∑ k, (X i k - t k)²` (`distDirect`),
    * the score `cross - target` clamped to `[-10, 10]`.
  The float literals stay as their IEEE words; none is ever evaluated except the zero and the two.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The Gram matrix of the rows. -/
def gram (X : Fin 64 → Fin 524288 → EReal) (i j : Fin 64) : EReal := ∑ k : Fin 524288, X i k * X j k

/-- Each row's inner product with the target. -/
def dotT (X : Fin 64 → Fin 524288 → EReal) (t : Fin 524288 → EReal) (i : Fin 64) : EReal :=
  ∑ k : Fin 524288, X i k * t k

/-- The target's squared norm. -/
def normT (t : Fin 524288 → EReal) : EReal := ∑ k : Fin 524288, t k * t k

/-- The radial kernel between rows `i` and `j`, from a Gram matrix: `exp (-(max (G i i + G j j - 2 G i j) 0))`. -/
def kern (G : Fin 64 → Fin 64 → EReal) (i j : Fin 64) : EReal :=
  Ideal.exp (Ideal.ofBits .f32 0xBF800000#32
    * max ((G i i + G j j) - Ideal.ofBits .f32 0x40000000#32 * G i j) (Ideal.ofBits .f32 0x00000000#32))

/-- A quarter of the kernel's sum off the diagonal, over `4032`. -/
def cross (G : Fin 64 → Fin 64 → EReal) : EReal :=
  Ideal.div (Ideal.ofBits .f32 0x3E800000#32 * ((∑ i : Fin 64, ∑ j : Fin 64, kern G i j) - ∑ i : Fin 64, kern G i i))
    (Ideal.ofBits .f32 0x457C0000#32)

/-- The mean over the rows of `exp (-D i)`. -/
def target (D : Fin 64 → EReal) : EReal :=
  Ideal.div (∑ i : Fin 64, Ideal.exp (Ideal.ofBits .f32 0xBF800000#32 * D i)) (Ideal.ofBits .f32 0x42800000#32)

/-- The score: `cross - target`, clamped to `[-10, 10]`. -/
def score (G : Fin 64 → Fin 64 → EReal) (D : Fin 64 → EReal) : EReal :=
  min (Ideal.ofBits .f32 0x41200000#32) (max (Ideal.ofBits .f32 0xC1200000#32) (cross G - target D))

/-- Row `i`'s squared distance to the target, expanded: `max (‖X i‖² - 2 ⟨X i, t⟩ + ‖t‖²) 0`. -/
def distExpanded (X : Fin 64 → Fin 524288 → EReal) (t : Fin 524288 → EReal) (i : Fin 64) : EReal :=
  max ((gram X i i - Ideal.ofBits .f32 0x40000000#32 * dotT X t i) + normT t) (Ideal.ofBits .f32 0x00000000#32)

/-- Row `i`'s squared distance to the target, directly: `∑ k, (X i k - t k)²`. -/
def distDirect (X : Fin 64 → Fin 524288 → EReal) (t : Fin 524288 → EReal) (i : Fin 64) : EReal :=
  ∑ k : Fin 524288, (X i k - t k) * (X i k - t k)

/-- The samples' rows: the `64 × 4096 × 128` array read row-major as `64 × 524288`. -/
def rowsOf (a : (⟨3, ![64, 4096, 128]⟩ : Shape).Idx → EReal) : Fin 64 → Fin 524288 → EReal :=
  fun i k => a (ix3 i (⟨k.val / 128, by have := k.isLt; omega⟩ : Fin 4096) (⟨k.val % 128, Nat.mod_lt _ (by norm_num)⟩ : Fin 128))

/-- The target's row: the `4096 × 128` array read row-major as one row of `524288`. -/
def flatOf (b : (⟨2, ![4096, 128]⟩ : Shape).Idx → EReal) : Fin 524288 → EReal :=
  fun k => b (ix2 (⟨k.val / 128, by have := k.isLt; omega⟩ : Fin 4096) (⟨k.val % 128, Nat.mod_lt _ (by norm_num)⟩ : Fin 128))

/-- The column of the flattened axis that half `p` (of two), tile `k` (of sixteen) and lane `y` (of 16384) name:
    `16384 · (16 p + k) + y`. The two halves, their sixteen tiles and the lanes enumerate the 524288 columns once each. -/
def col (p : Fin 2) (k : Fin 16) (y : Fin 16384) : Fin 524288 :=
  ⟨16384 * (16 * p.val + k.val) + y.val, by have := p.isLt; have := k.isLt; have := y.isLt; omega⟩

end Cert.Spec

end
-- ==== Proof.KernelGlue.lean ====
/-
  The boundary contents of the kernel's run, read back one step at a time: the result is the re-reading of region 1's
  one-element output as a scalar; region 1's inputs are region 0's three output arrays; region 0's inputs are the two
  row-major re-readings of the argument arrays (the samples as 64 rows of 524288, the target as one row).
-/
import proofs.«137065_j56899726737831_1_alg».proof.Proof.Gen.KernelIdeal.Frame
import proofs.«137065_j56899726737831_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Glue

open Idealize.ShloMosaic Idealize.ShloMosaic.TcCoe Idealize.ShloMosaic.ValueIdx Idealize.ShloMosaic.StableHlo
open Idealize.SL.Sem
open Cert.KernelIdeal Cert.KernelIdeal.Gen

variable {F : FTy → Type} [FloatOps F]
variable (m : (ℓ : Loc nD τ sig) → Buf (Elt F) ℓ) (ρ : Dev nD → PrngReg)

/-- The result is region 1's output re-read as a scalar. -/
theorem W4_v4 (c : Dev nD) :
    W4 m ρ c (Proc.devRef .tc main_v4) = shapeCast S_ (W3 m ρ c (Proc.devRef .tc main_v3) : Vec F S1x1 .f32) shapeCasts_S1x1_S_ := by
  show StableHlo.after hostOps2 (W3 m ρ c) (Proc.devRef .tc main_v4) = _
  after_results
  rfl

/-- Region 1's output array after its run. -/
theorem W3_v3 (c : Dev nD) : W3 m ρ c (Proc.devRef .tc main_v3) = (dat1 (V2 m ρ) c).arrAt 3 cfg1.N :=
  W3_arr m ρ c 3

/-- Region 0's three output arrays after its run are what region 1 is entered with. -/
theorem V2_v2_0 (c : Dev nD) : V2 m ρ c main_v2_0 = (dat0 (V1 m ρ) c).arrAt 2 cfg0.N := W2_arr m ρ c 2
theorem V2_v2_1 (c : Dev nD) : V2 m ρ c main_v2_1 = (dat0 (V1 m ρ) c).arrAt 3 cfg0.N := W2_arr m ρ c 3
theorem V2_v2_2 (c : Dev nD) : V2 m ρ c main_v2_2 = (dat0 (V1 m ρ) c).arrAt 4 cfg0.N := W2_arr m ρ c 4

/-- Region 0 is entered with the samples re-read as 64 rows … -/
theorem V1_v0 (c : Dev nD) :
    V1 m ρ c main_v0 = shapeCast S64x524288 (m ((c : Thread nD τ).loc main_arg0) : Vec F S64x4096x128 .f32) shapeCasts_S64x4096x128_S64x524288 := by
  show StableHlo.after hostOps0 (W0 m ρ c) (Proc.devRef .tc main_v0) = _
  after_results
  rfl
/-- … and the target re-read as one row. -/
theorem V1_v1 (c : Dev nD) :
    V1 m ρ c main_v1 = shapeCast S1x524288 (m ((c : Thread nD τ).loc main_arg1) : Vec F S4096x128 .f32) shapeCasts_S4096x128_S1x524288 := by
  show StableHlo.after hostOps0 (W0 m ρ c) (Proc.devRef .tc main_v1) = _
  after_results
  rfl

/-! ## At the ideal instance: the two re-readings at an index -/

section AtIdeal
variable (m : (ℓ : Loc nD τ sig) → Buf (Elt Ideal) ℓ) (ρ : Dev nD → PrngReg)

/-- Row `i`, column `k` of the samples as region 0 finds them is the argument at `(i, k / 128, k % 128)`. -/
theorem rows_apply (c : Dev nD) (i : Fin 64) (k : Fin 524288) :
    (V1 m ρ c main_v0 : Vec Ideal S64x524288 .f32) (ix2 i k)
      = Spec.rowsOf (m ((c : Thread nD τ).loc main_arg0) : Vec Ideal S64x4096x128 .f32) i k := by
  rw [V1_v0]
  unfold Spec.rowsOf
  refine shapeCast_apply _ _ _ _ ?_
  show (S64x4096x128.rowMajor (ix3 i (⟨k.val / 128, _⟩ : Fin 4096) (⟨k.val % 128, _⟩ : Fin 128))).val = (S64x524288.rowMajor (ix2 i k)).val
  rw [Shape.rowMajor_val_three, Shape.rowMajor_val_two]
  show (i.val * 4096 + k.val / 128) * 128 + k.val % 128 = i.val * 524288 + k.val
  omega

/-- Column `k` of the target as region 0 finds it is the argument at `(k / 128, k % 128)`. -/
theorem flat_apply (c : Dev nD) (z : Fin 1) (k : Fin 524288) :
    (V1 m ρ c main_v1 : Vec Ideal S1x524288 .f32) (ix2 z k)
      = Spec.flatOf (m ((c : Thread nD τ).loc main_arg1) : Vec Ideal S4096x128 .f32) k := by
  rw [V1_v1]
  unfold Spec.flatOf
  refine shapeCast_apply _ _ _ _ ?_
  show (S4096x128.rowMajor (ix2 (⟨k.val / 128, _⟩ : Fin 4096) (⟨k.val % 128, _⟩ : Fin 128))).val = (S1x524288.rowMajor (ix2 z k)).val
  rw [Shape.rowMajor_val_two, Shape.rowMajor_val_two]
  show (k.val / 128) * 128 + k.val % 128 = z.val * 524288 + k.val
  have := z.isLt
  omega

end AtIdeal

end Cert.KernelIdeal.Glue

end
-- ==== Proof.R1Arr.lean ====
/-
  Region 1's output array after the run.

  Region 1 runs on a grid of one point. Each of its four windows has the constant-zero index map and a block
  as large as its array, so a block's coordinate on an axis is  index · size + 1 · (the coordinate inside the
  block) = 0 · size + the coordinate itself:  the block at the one point IS the whole array. Hence
    * each input window's block, read off the region-entry contents, is the entry array itself
      (`iblk1_0`, `iblk1_1`, `iblk1_2`), and
    * what the one point writes back through output window 3 is the body's function `out1_3` of the three
      entry arrays, and that one block covers the 1 × 1 output array, so the array ends holding exactly that
      function of the entry arrays (`arr1_3`).
  Everything here holds at any float instance: no arithmetic is touched, only where indices land.
-/
import proofs.«137065_j56899726737831_1_alg».proof.Proof.Gen.KernelIdeal.Frame
import Idealize.ShloMosaic.Lib.Pipeline.Value
import Idealize.ShloMosaic.Lib.ValueIdx

-- membership in a rectangle of a view is decided by structural recursion on coordinates
set_option maxRecDepth 16384

noncomputable section

namespace Cert.KernelIdeal.R1Arr

open Idealize.ShloMosaic Idealize.ShloMosaic.TcCoe
open Idealize.ShloMosaic.Pipeline (Dat Cfg Window)
open Cert.KernelIdeal Cert.KernelIdeal.Gen Idealize.ShloMosaic.ValueIdx

variable {F : FTy → Type} [FloatOps F]
variable (V : (c : Dev nD) → (b : Ref sig .tc) → Buf (Elt F) ((c : Thread nD τ).loc b)) (c : Dev nD)

/-! ## The index maps at the grid's one point: constant zero on every axis, decided over the grid -/

theorem idx0 : ∀ t : Fin cfg1.N, win1_0.index t (0 : Fin 3) = 0 ∧ win1_0.index t (1 : Fin 3) = 0 ∧ win1_0.index t (2 : Fin 3) = 0 :=
  (by decide +kernel : ∀ t : Fin grid1.N, _)
theorem idx1 : ∀ t : Fin cfg1.N, win1_1.index t (0 : Fin 3) = 0 ∧ win1_1.index t (1 : Fin 3) = 0 ∧ win1_1.index t (2 : Fin 3) = 0 :=
  (by decide +kernel : ∀ t : Fin grid1.N, _)
theorem idx2 : ∀ t : Fin cfg1.N, win1_2.index t (0 : Fin 3) = 0 ∧ win1_2.index t (1 : Fin 3) = 0 ∧ win1_2.index t (2 : Fin 3) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)

/-! ## The input windows' blocks are their whole arrays -/

/-- Window 0's block at the one point is the whole `2 × 64 × 64` array: on each axis the block coordinate is
    `0 · size + 1 · y = y`. -/
theorem iblk1_0 (t : Fin cfg1.N) : iblk1 V c 0 t = (V c main_v2_0 : Vec F S2x64x64 .f32) := by
  unfold iblk1
  funext y
  show V c main_v2_0 (((cfg1.win 0).blk t).view.emb y) = V c main_v2_0 y
  obtain ⟨e0, e1, e2⟩ := idx0 t
  refine congrArg (V c main_v2_0) ?_
  funext a; apply Fin.ext
  match a with
  | ⟨0, _⟩ => show win1_0.index t (0 : Fin 3) * 2 + 1 * (y 0).val = (y 0).val; omega
  | ⟨1, _⟩ => show win1_0.index t (1 : Fin 3) * 64 + 1 * (y 1).val = (y 1).val; omega
  | ⟨2, _⟩ => show win1_0.index t (2 : Fin 3) * 64 + 1 * (y 2).val = (y 2).val; omega

/-- Window 1's block at the one point is the whole `2 × 64 × 1` array. -/
theorem iblk1_1 (t : Fin cfg1.N) : iblk1 V c 1 t = (V c main_v2_1 : Vec F S2x64x1 .f32) := by
  unfold iblk1
  funext y
  show V c main_v2_1 (((cfg1.win 1).blk t).view.emb y) = V c main_v2_1 y
  obtain ⟨e0, e1, e2⟩ := idx1 t
  refine congrArg (V c main_v2_1) ?_
  funext a; apply Fin.ext
  match a with
  | ⟨0, _⟩ => show win1_1.index t (0 : Fin 3) * 2 + 1 * (y 0).val = (y 0).val; omega
  | ⟨1, _⟩ => show win1_1.index t (1 : Fin 3) * 64 + 1 * (y 1).val = (y 1).val; omega
  | ⟨2, _⟩ => show win1_1.index t (2 : Fin 3) * 1 + 1 * (y 2).val = (y 2).val; omega

/-- Window 2's block at the one point is the whole `2 × 1 × 1` array. -/
theorem iblk1_2 (t : Fin cfg1.N) : iblk1 V c 2 t = (V c main_v2_2 : Vec F S2x1x1 .f32) := by
  unfold iblk1
  funext y
  show V c main_v2_2 (((cfg1.win 2).blk t).view.emb y) = V c main_v2_2 y
  obtain ⟨e0, e1, e2⟩ := idx2 t
  refine congrArg (V c main_v2_2) ?_
  funext a; apply Fin.ext
  match a with
  | ⟨0, _⟩ => show win1_2.index t (0 : Fin 3) * 2 + 1 * (y 0).val = (y 0).val; omega
  | ⟨1, _⟩ => show win1_2.index t (1 : Fin 3) * 1 + 1 * (y 1).val = (y 1).val; omega
  | ⟨2, _⟩ => show win1_2.index t (2 : Fin 3) * 1 + 1 * (y 2).val = (y 2).val; omega

/-! ## The output window: what is written back, and that it covers the array -/

/-- An index of the output array lies in point `t`'s block iff each coordinate lies in the block's range on its axis. -/
theorem mem_blk3 (t : Fin cfg1.N) (i : S1x1.Idx) :
    i ∈ ((cfg1.win 3).blk t).view.set ↔ ∀ a : Fin 2, win1_3.index t a * S1x1.size a ≤ (i a).val ∧ (i a).val < win1_3.index t a * S1x1.size a + S1x1.size a := by
  show i ∈ ((View.whole main_v3).slice (win1_3.rect t)).set ↔ _
  rw [View.set_slice_whole, Rect.mem_set_unit]
  exact Iff.rfl

/-- What point `t` writes back through window 3 is block `t` of the body's function of the three entry arrays:
    the input blocks are the whole arrays, and the uncut block's coordinates are the array's own. -/
theorem flushed1_3 (t : Fin cfg1.N) :
    (dat1 V c).flushed 3 t = ((cfg1.win 3).blk t).view.read (Elt F) (out1_3 (V c main_v2_0) (V c main_v2_1) (V c main_v2_2)) := by
  show (cfg1.win 3).cut (grid1.coords t) ((dat1 V c).after 3 t) = _
  rw [after1_3, iblk1_0, iblk1_1, iblk1_2]
  funext y
  show out1_3 (V c main_v2_0) (V c main_v2_1) (V c main_v2_2) ((cfg1.win 3).xinj (grid1.coords t) y)
    = out1_3 (V c main_v2_0) (V c main_v2_1) (V c main_v2_2) (((cfg1.win 3).blk t).view.emb y)
  obtain ⟨e0, e1⟩ := idx3 t
  refine congrArg (out1_3 (V c main_v2_0) (V c main_v2_1) (V c main_v2_2)) ?_
  funext a; apply Fin.ext
  match a with
  | ⟨0, _⟩ => show (y 0).val = win1_3.index t (0 : Fin 2) * 1 + 1 * (y 0).val; omega
  | ⟨1, _⟩ => show (y 1).val = win1_3.index t (1 : Fin 2) * 1 + 1 * (y 1).val; omega

/-- The output array after the run: the body's function of the three entry arrays. The one point writes its
    block back, and that block, at index zero and of the array's size, contains every index of the `1 × 1` array. -/
theorem arr1_3 : (dat1 V c).arrAt 3 cfg1.N = out1_3 (V c main_v2_0) (V c main_v2_1) (V c main_v2_2) := by
  refine (dat1 V c).arrAt_eq_of_cover 3 (out1_3 (V c main_v2_0) (V c main_v2_1) (V c main_v2_2)) (fun t _ => flushed1_3 V c t) ?_
  intro i
  refine ⟨⟨0, by decide⟩, flush1_3 _, ?_⟩
  rw [mem_blk3]
  obtain ⟨e0, e1⟩ := idx3 ⟨0, by decide⟩
  intro a
  match a with
  | ⟨0, _⟩ => show win1_3.index ⟨0, by decide⟩ (0 : Fin 2) * 1 ≤ (i 0).val ∧ (i 0).val < win1_3.index ⟨0, by decide⟩ (0 : Fin 2) * 1 + 1; have hi : (i 0).val < 1 := (i 0).isLt; omega
  | ⟨1, _⟩ => show win1_3.index ⟨0, by decide⟩ (1 : Fin 2) * 1 ≤ (i 1).val ∧ (i 1).val < win1_3.index ⟨0, by decide⟩ (1 : Fin 2) * 1 + 1; have hi : (i 1).val < 1 := (i 1).isLt; omega

end Cert.KernelIdeal.R1Arr

end
-- ==== Proof.R1Payload.lean ====
/-
  The finalize region, read at the extended reals, is the score of the summed accumulators.

  The region is handed three accumulators, each in two halves along a leading axis of extent 2: the Gram
  sums (2 × 64 × 64), the rows' products with the target (2 × 64 × 1) and the target's squared norm
  (2 × 1 × 1). It adds the halves, giving a Gram matrix `G`, a column `c` and a number `n`; takes the
  diagonal `d i = G i i` as the masked row sum `∑ j, if i = j then G i j else 0`; forms the pairwise kernel
  `exp (-(max (d i + d j - 2 G i j) 0))` from the diagonal broadcast along rows and along columns; sums it
  over all entries and, masked, over its diagonal; scales the difference by `1/4` and divides by `4032`;
  subtracts the mean over the rows of `exp (-(max (d i - 2 c i + n) 0))`; and clamps to `[-10, 10]`.

  Each payload is read at an index: a shape cast that drops or adds a unit axis reads the same entry, a
  broadcast reads the operand's entry on its non-unit axes, a transpose swaps the two coordinates, a
  reduction along one axis is the finite sum over that axis, a select on the diagonal mask is an `if` on
  `i = j`, and `∑ j, if i = j then f j else 0 = f i`. The float literals stay as their words; only the zero
  word is evaluated, where a masked sum needs `0` as the additive unit.
-/
import proofs.«137065_j56899726737831_1_alg».proof.Proof.Gen.KernelIdeal.Frame
import proofs.«137065_j56899726737831_1_alg».proof.Proof.Gen.KernelIdeal.Skeleton
import proofs.«137065_j56899726737831_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.R1Payload

open Cert.KernelIdeal Cert.KernelIdeal.Gen Idealize.ShloMosaic Idealize.ShloMosaic.ValueIdx

/-! ## The quantities the region computes, from the accumulators' two halves -/

/-- The Gram matrix: the two halves' accumulators, added. -/
def G (x0 : Vec Ideal S2x64x64 .f32) : Fin 64 → Fin 64 → EReal :=
  fun i j => x0 (ix3 (0 : Fin 2) i j) + x0 (ix3 (1 : Fin 2) i j)

/-- Row `i`'s squared distance to the target, expanded, from the accumulators' two halves. -/
def Dk (x0 : Vec Ideal S2x64x64 .f32) (x1 : Vec Ideal S2x64x1 .f32) (x2 : Vec Ideal S2x1x1 .f32) : Fin 64 → EReal :=
  fun i => max ((G x0 i i - Ideal.ofBits .f32 0x40000000#32 * (x1 (ix3 (0 : Fin 2) i (0 : Fin 1)) + x1 (ix3 (1 : Fin 2) i (0 : Fin 1))))
      + (x2 (ix3 (0 : Fin 2) (0 : Fin 1) (0 : Fin 1)) + x2 (ix3 (1 : Fin 2) (0 : Fin 1) (0 : Fin 1)))) (Ideal.ofBits .f32 0x00000000#32)

/-- Two half blocks of the Gram accumulator, added entry by entry. -/
def Gb (v0 v2 : Vec Ideal S1x64x64 .f32) : Fin 64 → Fin 64 → EReal :=
  fun a b => v0 (ix3 (0 : Fin 1) a b) + v2 (ix3 (0 : Fin 1) a b)

variable [Cert.KernelIdeal.Facts]

/-! ## The loads: the first half is the array's leading block, the second half the block one step along axis 0 -/

theorem ld0_x0 (x0 : Vec Ideal S2x64x64 .f32) (i j : Fin 64) :
    (View.ld x0 r1_0) (ix3 (0 : Fin 1) i j) = x0 (ix3 (0 : Fin 2) i j) := by
  refine congrArg x0 (funext fun a => Fin.ext ?_)
  match a with
  | ⟨0, _⟩ => rfl
  | ⟨1, _⟩ => show 0 + 1 * i.val = i.val; omega
  | ⟨2, _⟩ => show 0 + 1 * j.val = j.val; omega

theorem ld1_x0 (x0 : Vec Ideal S2x64x64 .f32) (i j : Fin 64) :
    (View.ld x0 r1_1) (ix3 (0 : Fin 1) i j) = x0 (ix3 (1 : Fin 2) i j) := by
  refine congrArg x0 (funext fun a => Fin.ext ?_)
  match a with
  | ⟨0, _⟩ => rfl
  | ⟨1, _⟩ => show 0 + 1 * i.val = i.val; omega
  | ⟨2, _⟩ => show 0 + 1 * j.val = j.val; omega

/-- The two halves of the Gram accumulator, added. -/
theorem pay2_apply (v0 v2 : Vec Ideal S1x64x64 .f32) (i j : Fin 64) :
    k1_pay2 v0 v2 (ix2 i j) = v0 (ix3 (0 : Fin 1) i j) + v2 (ix3 (0 : Fin 1) i j) := by
  unfold k1_pay2
  show shapeCast S64x64 v0 shapeCasts_S1x64x64_S64x64 (ix2 i j) + shapeCast S64x64 v2 shapeCasts_S1x64x64_S64x64 (ix2 i j) = _
  rw [shapeCast_1ab_ab_apply, shapeCast_1ab_ab_apply]

/-- The two halves of the products with the target, added. -/
theorem pay3_apply (v5 v7 : Vec Ideal S1x64x1 .f32) (i : Fin 64) (u : Fin 1) :
    k1_pay3 v5 v7 (ix2 i u) = v5 (ix3 (0 : Fin 1) i u) + v7 (ix3 (0 : Fin 1) i u) := by
  unfold k1_pay3
  show shapeCast S64x1 v5 shapeCasts_S1x64x1_S64x1 (ix2 i u) + shapeCast S64x1 v7 shapeCasts_S1x64x1_S64x1 (ix2 i u) = _
  rw [shapeCast_1ab_ab_apply, shapeCast_1ab_ab_apply]

/-- The two halves of the target's squared norm, added. -/
theorem pay4_apply (v10 v12 : Vec Ideal S1x1x1 .f32) (u w : Fin 1) :
    k1_pay4 v10 v12 (ix2 u w) = v10 (ix3 (0 : Fin 1) u w) + v12 (ix3 (0 : Fin 1) u w) := by
  unfold k1_pay4
  show shapeCast S1x1 v10 shapeCasts_S1x1x1_S1x1 (ix2 u w) + shapeCast S1x1 v12 shapeCasts_S1x1x1_S1x1 (ix2 u w) = _
  rw [shapeCast_1ab_ab_apply, shapeCast_1ab_ab_apply]

/-- The diagonal mask: row number equals column number. -/
theorem pay5_iff (i j : Fin 64) : k1_pay5 (ix2 i j) = 1#1 ↔ i = j := by
  unfold k1_pay5
  show IntOp.cmpi .eq (iota .tc S64x64 32 [0] iota_S64x64_d0_w32 (ix2 i j)) (iota .tc S64x64 32 [1] iota_S64x64_d1_w32 (ix2 i j)) = 1#1 ↔ _
  rw [iota_single_apply, iota_single_apply, IntOp.cmpi_eq]
  show BitVec.ofNat 32 i.val = BitVec.ofNat 32 j.val ↔ i = j
  constructor
  · intro h
    have h' := congrArg BitVec.toNat h
    rw [BitVec.toNat_ofNat, BitVec.toNat_ofNat] at h'
    have := i.isLt; have := j.isLt
    exact Fin.ext (by omega)
  · rintro rfl; rfl

/-! ## A vector of 64 as a column, a single value as a 1×1 block; sums along a row and down a column -/

theorem cast_col {α : Type} (x : S64.Idx → α) (i : Fin 64) (u : Fin 1) :
    shapeCast S64x1 x shapeCasts_S64_S64x1 (ix2 i u) = x (ix1 i) :=
  shapeCast_apply x _ _ _ (by
    have hu : u.val = 0 := by omega
    rw [Shape.rowMajor_val_one, Shape.rowMajor_val_two]
    show i.val = i.val * 1 + u.val
    omega)

theorem cast_one {α : Type} (x : S1.Idx → α) (u w : Fin 1) :
    shapeCast S1x1 x shapeCasts_S1_S1x1 (ix2 u w) = x (ix1 (0 : Fin 1)) :=
  shapeCast_apply x _ _ _ (by
    have hu : u.val = 0 := by omega
    have hw : w.val = 0 := by omega
    rw [Shape.rowMajor_val_one, Shape.rowMajor_val_two]
    show (0 : ℕ) = u.val * 1 + w.val
    omega)

theorem rowsum (w : FVec Ideal S64x64 .f32) (i : Fin 64) :
    multiReduction .add [1] S64 w 0x00000000#32 reduces_S64x64_S64 (.inl rfl) rfl (ix1 i) = ∑ k : Fin 64, w (ix2 i k) := by
  refine (Ideal.multiReduction_add_single w _ reduces_S64x64_S64 _ _ (ix1 i)).trans ?_
  refine Finset.sum_congr rfl fun k _ => congrArg w (funext fun a => Fin.ext ?_)
  match a with
  | ⟨0, _⟩ => rfl
  | ⟨1, _⟩ => rfl

theorem colsum (w : FVec Ideal S64x1 .f32) (u : Fin 1) :
    multiReduction .add [0] S1 w 0x00000000#32 reduces_S64x1_S1 (.inl rfl) rfl (ix1 u) = ∑ k : Fin 64, w (ix2 k (0 : Fin 1)) := by
  refine (Ideal.multiReduction_add_single w _ reduces_S64x1_S1 _ _ (ix1 u)).trans ?_
  refine Finset.sum_congr rfl fun k _ => congrArg w (funext fun a => Fin.ext ?_)
  match a with
  | ⟨0, _⟩ => rfl
  | ⟨1, _⟩ => show (u : ℕ) = 0; omega

/-! ## The Gram matrix from its two half blocks, its diagonal, the pairwise kernel and its row sums -/

/-- The masked row sum keeps the one entry on the diagonal: the column of the rows' squared norms. -/
theorem pay6_apply (v0 v2 : Vec Ideal S1x64x64 .f32) (i : Fin 64) (u : Fin 1) :
    k1_pay6 v0 v2 (ix2 i u) = Gb v0 v2 i i := by
  unfold k1_pay6
  refine (cast_col _ i u).trans ?_
  refine (rowsum _ i).trans ?_
  have e : ∀ k : Fin 64, select k1_pay5 (k1_pay2 v0 v2) (broadcast S64x64 (Scalar.ofBits (F := Ideal) .f32 0x00000000#32)) (ix2 i k)
      = if i = k then Gb v0 v2 i k else 0 := by
    intro k
    rw [select_apply, pay2_apply]
    by_cases h : i = k
    · rw [(pay5_iff i k).2 h, select_one, if_pos h]; rfl
    · rw [eq_zero_of_ne_one (fun hh => h ((pay5_iff i k).1 hh)), select_zero, if_neg h]
      exact Ideal.ofBits_zero_f32
  rw [Finset.sum_congr rfl fun k _ => e k, Finset.sum_ite_eq, if_pos (Finset.mem_univ i)]

/-- The pairwise kernel: the diagonal broadcast along rows and (transposed) along columns, minus twice the Gram entry. -/
theorem pay7_apply (v0 v2 : Vec Ideal S1x64x64 .f32) (i j : Fin 64) :
    k1_pay7 v0 v2 (ix2 i j) = Spec.kern (Gb v0 v2) i j := by
  have eI : broadcastTo S64x64 (k1_pay6 v0 v2) broadcasts_S64x1_S64x64 (ix2 i j) = k1_pay6 v0 v2 (ix2 i (0 : Fin 1)) :=
    broadcastTo_apply _ _ _ _ fun a => match a with | ⟨0, _⟩ => rfl | ⟨1, _⟩ => rfl
  have eJ : broadcastTo S64x64 (transpose S1x64 [1, 0] (k1_pay6 v0 v2) transposes_S64x1_p1_0_S1x64) broadcasts_S1x64_S64x64 (ix2 i j)
      = k1_pay6 v0 v2 (ix2 j (0 : Fin 1)) := by
    refine (broadcastTo_apply _ _ (ix2 i j) (ix2 (0 : Fin 1) j) fun a => match a with | ⟨0, _⟩ => rfl | ⟨1, _⟩ => rfl).trans ?_
    exact transpose_apply _ _ _ _ _ fun b => match b with | ⟨0, _⟩ => rfl | ⟨1, _⟩ => rfl
  unfold k1_pay7 Spec.kern
  show Ideal.exp (_ * max ((broadcastTo S64x64 (k1_pay6 v0 v2) broadcasts_S64x1_S64x64 (ix2 i j)
      + broadcastTo S64x64 (transpose S1x64 [1, 0] (k1_pay6 v0 v2) transposes_S64x1_p1_0_S1x64) broadcasts_S1x64_S64x64 (ix2 i j))
      - _ * k1_pay2 v0 v2 (ix2 i j)) _) = _
  rw [eI, eJ, pay6_apply, pay6_apply, pay2_apply]
  rfl

/-- The kernel's row sums. -/
theorem pay8_apply (v0 v2 : Vec Ideal S1x64x64 .f32) (i : Fin 64) :
    k1_pay8 v0 v2 (ix1 i) = ∑ j : Fin 64, Spec.kern (Gb v0 v2) i j := by
  unfold k1_pay8
  refine (rowsum _ i).trans ?_
  exact Finset.sum_congr rfl fun j _ => pay7_apply v0 v2 i j

/-! ## The last payload: the two lane sums, the scaled off-diagonal sum, the mean against the target, the clamp -/

/-- The column `exp (-(max (d_i - 2 c_i + n) 0))` whose mean is taken: `d` the diagonal, `c` the products with the target, `n` its squared norm. -/
def tcol (v9 : FVec Ideal S64x1 .f32) (v14 : FVec Ideal S1x1 .f32) (v21 : FVec Ideal S64x1 .f32) : FVec Ideal S64x1 .f32 :=
  exp (mulf (broadcast S64x1 (Scalar.ofBits (F := Ideal) .f32 0xBF800000#32))
    (maximumf (addf (subf v21 (mulf (broadcast S64x1 (Scalar.ofBits (F := Ideal) .f32 0x40000000#32)) v9))
        (broadcastTo S64x1 v14 broadcasts_S1x1_S64x1))
      (broadcast S64x1 (Scalar.ofBits (F := Ideal) .f32 0x00000000#32))))

/-- The pairwise kernel with everything off the diagonal put to zero. -/
def dmask (v17 : IVec S64x64 1) (v33 : FVec Ideal S64x64 .f32) : FVec Ideal S64x64 .f32 :=
  select v17 v33 (broadcast S64x64 (Scalar.ofBits (F := Ideal) .f32 0x00000000#32))

/-- A column's sum as a 1×1 block. -/
def lane (c : FVec Ideal S64x1 .f32) : FVec Ideal S1x1 .f32 :=
  shapeCast S1x1 (multiReduction (F := Ideal) .add [0] S1 c 0x00000000#32 reduces_S64x1_S1 (.inl rfl) rfl) shapeCasts_S1_S1x1

/-- A row-sum vector as a column. -/
def rows (m : FVec Ideal S64x64 .f32) : FVec Ideal S64x1 .f32 :=
  shapeCast S64x1 (multiReduction (F := Ideal) .add [1] S64 m 0x00000000#32 reduces_S64x64_S64 (.inl rfl) rfl) shapeCasts_S64_S64x1

set_option maxHeartbeats 100000 in
/-- The payload's own shape: a clamp of a difference of two quotients, over three lane sums. -/
theorem pay1_struct (v9 : FVec Ideal S64x1 .f32) (v14 : FVec Ideal S1x1 .f32) (v17 : IVec S64x64 1)
    (v21 : FVec Ideal S64x1 .f32) (v33 : FVec Ideal S64x64 .f32) (v34 : FVec Ideal S64 .f32) (y : S1x1.Idx) :
    k1_pay1 v9 v14 v17 v21 v33 v34 y
      = min (Ideal.ofBits .f32 0x41200000#32) (max (Ideal.ofBits .f32 0xC1200000#32)
          (Ideal.div (Ideal.ofBits .f32 0x3E800000#32
                * (lane (shapeCast S64x1 v34 shapeCasts_S64_S64x1) y - lane (rows (dmask v17 v33)) y))
              (Ideal.ofBits .f32 0x457C0000#32)
            - Ideal.div (lane (tcol v9 v14 v21) y) (Ideal.ofBits .f32 0x42800000#32))) := rfl

theorem lane_apply (c : FVec Ideal S64x1 .f32) (u w : Fin 1) : lane c (ix2 u w) = ∑ i : Fin 64, c (ix2 i (0 : Fin 1)) :=
  (cast_one _ u w).trans (colsum c 0)

theorem rows_apply (m : FVec Ideal S64x64 .f32) (i : Fin 64) (u : Fin 1) : rows m (ix2 i u) = ∑ k : Fin 64, m (ix2 i k) :=
  (cast_col _ i u).trans (rowsum m i)

theorem tcol_apply (v9 : FVec Ideal S64x1 .f32) (v14 : FVec Ideal S1x1 .f32) (v21 : FVec Ideal S64x1 .f32) (i : Fin 64) :
    tcol v9 v14 v21 (ix2 i (0 : Fin 1))
      = Ideal.exp (Ideal.ofBits .f32 0xBF800000#32
          * max ((v21 (ix2 i (0 : Fin 1)) - Ideal.ofBits .f32 0x40000000#32 * v9 (ix2 i (0 : Fin 1)))
              + v14 (ix2 (0 : Fin 1) (0 : Fin 1))) (Ideal.ofBits .f32 0x00000000#32)) := by
  have eB : broadcastTo S64x1 v14 broadcasts_S1x1_S64x1 (ix2 i (0 : Fin 1)) = v14 (ix2 (0 : Fin 1) (0 : Fin 1)) :=
    broadcastTo_apply _ _ _ _ fun a => match a with | ⟨0, _⟩ => rfl | ⟨1, _⟩ => rfl
  unfold tcol
  show Ideal.exp (Ideal.ofBits .f32 0xBF800000#32
      * max ((v21 (ix2 i (0 : Fin 1)) - Ideal.ofBits .f32 0x40000000#32 * v9 (ix2 i (0 : Fin 1)))
          + broadcastTo S64x1 v14 broadcasts_S1x1_S64x1 (ix2 i (0 : Fin 1))) (Ideal.ofBits .f32 0x00000000#32)) = _
  rw [eB]

theorem pay1_apply (v9 : FVec Ideal S64x1 .f32) (v14 : FVec Ideal S1x1 .f32) (v17 : IVec S64x64 1)
    (v21 : FVec Ideal S64x1 .f32) (v33 : FVec Ideal S64x64 .f32) (v34 : FVec Ideal S64 .f32) (u w : Fin 1) :
    k1_pay1 v9 v14 v17 v21 v33 v34 (ix2 u w)
      = min (Ideal.ofBits .f32 0x41200000#32) (max (Ideal.ofBits .f32 0xC1200000#32)
          (Ideal.div (Ideal.ofBits .f32 0x3E800000#32 * ((∑ i : Fin 64, v34 (ix1 i))
                - ∑ i : Fin 64, ∑ j : Fin 64, Scalar.select (v17 (ix2 i j)) (v33 (ix2 i j)) (Ideal.ofBits .f32 0x00000000#32)))
              (Ideal.ofBits .f32 0x457C0000#32)
            - Ideal.div (∑ i : Fin 64, Ideal.exp (Ideal.ofBits .f32 0xBF800000#32
                  * max ((v21 (ix2 i (0 : Fin 1)) - Ideal.ofBits .f32 0x40000000#32 * v9 (ix2 i (0 : Fin 1)))
                      + v14 (ix2 (0 : Fin 1) (0 : Fin 1))) (Ideal.ofBits .f32 0x00000000#32)))
              (Ideal.ofBits .f32 0x42800000#32))) := by
  rw [pay1_struct, lane_apply, lane_apply, lane_apply,
    Finset.sum_congr rfl fun i _ => cast_col v34 i (0 : Fin 1),
    Finset.sum_congr rfl fun i _ => rows_apply (dmask v17 v33) i (0 : Fin 1),
    Finset.sum_congr rfl fun i _ => tcol_apply v9 v14 v21 i]
  rfl

/-! ## The region read as the score -/

theorem ld0_x1 (x1 : Vec Ideal S2x64x1 .f32) (i : Fin 64) (u : Fin 1) :
    (View.ld x1 r1_2) (ix3 (0 : Fin 1) i u) = x1 (ix3 (0 : Fin 2) i u) := by
  refine congrArg x1 (funext fun a => Fin.ext ?_)
  match a with
  | ⟨0, _⟩ => rfl
  | ⟨1, _⟩ => show 0 + 1 * i.val = i.val; omega
  | ⟨2, _⟩ => show 0 + 1 * u.val = u.val; omega

theorem ld1_x1 (x1 : Vec Ideal S2x64x1 .f32) (i : Fin 64) (u : Fin 1) :
    (View.ld x1 r1_3) (ix3 (0 : Fin 1) i u) = x1 (ix3 (1 : Fin 2) i u) := by
  refine congrArg x1 (funext fun a => Fin.ext ?_)
  match a with
  | ⟨0, _⟩ => rfl
  | ⟨1, _⟩ => show 0 + 1 * i.val = i.val; omega
  | ⟨2, _⟩ => show 0 + 1 * u.val = u.val; omega

theorem ld0_x2 (x2 : Vec Ideal S2x1x1 .f32) (u w : Fin 1) :
    (View.ld x2 r1_4) (ix3 (0 : Fin 1) u w) = x2 (ix3 (0 : Fin 2) u w) := by
  refine congrArg x2 (funext fun a => Fin.ext ?_)
  match a with
  | ⟨0, _⟩ => rfl
  | ⟨1, _⟩ => show 0 + 1 * u.val = u.val; omega
  | ⟨2, _⟩ => show 0 + 1 * w.val = w.val; omega

theorem ld1_x2 (x2 : Vec Ideal S2x1x1 .f32) (u w : Fin 1) :
    (View.ld x2 r1_5) (ix3 (0 : Fin 1) u w) = x2 (ix3 (1 : Fin 2) u w) := by
  refine congrArg x2 (funext fun a => Fin.ext ?_)
  match a with
  | ⟨0, _⟩ => rfl
  | ⟨1, _⟩ => show 0 + 1 * u.val = u.val; omega
  | ⟨2, _⟩ => show 0 + 1 * w.val = w.val; omega

theorem Gb_ld (x0 : Vec Ideal S2x64x64 .f32) : Gb (View.ld x0 r1_0) (View.ld x0 r1_1) = G x0 := by
  funext i j
  unfold Gb G
  rw [ld0_x0, ld1_x0]

/-- The masked kernel's row sum keeps its diagonal entry. -/
theorem diag_sum (v0 v2 : Vec Ideal S1x64x64 .f32) (i : Fin 64) :
    ∑ j : Fin 64, Scalar.select (k1_pay5 (ix2 i j)) (k1_pay7 v0 v2 (ix2 i j)) (Ideal.ofBits .f32 0x00000000#32)
      = Spec.kern (Gb v0 v2) i i := by
  have e : ∀ j : Fin 64, Scalar.select (k1_pay5 (ix2 i j)) (k1_pay7 v0 v2 (ix2 i j)) (Ideal.ofBits .f32 0x00000000#32)
      = if i = j then Spec.kern (Gb v0 v2) i j else 0 := by
    intro j
    rw [pay7_apply]
    by_cases h : i = j
    · rw [(pay5_iff i j).2 h, select_one, if_pos h]
    · rw [eq_zero_of_ne_one (fun hh => h ((pay5_iff i j).1 hh)), select_zero, if_neg h]
      exact Ideal.ofBits_zero_f32
  rw [Finset.sum_congr rfl fun j _ => e j, Finset.sum_ite_eq, if_pos (Finset.mem_univ i)]

/-- One term of the mean against the target. -/
theorem tgt_term (x0 : Vec Ideal S2x64x64 .f32) (x1 : Vec Ideal S2x64x1 .f32) (x2 : Vec Ideal S2x1x1 .f32) (i : Fin 64) :
    Ideal.exp (Ideal.ofBits .f32 0xBF800000#32
        * max ((k1_pay6 (View.ld x0 r1_0) (View.ld x0 r1_1) (ix2 i (0 : Fin 1))
              - Ideal.ofBits .f32 0x40000000#32 * k1_pay3 (View.ld x1 r1_2) (View.ld x1 r1_3) (ix2 i (0 : Fin 1)))
            + k1_pay4 (View.ld x2 r1_4) (View.ld x2 r1_5) (ix2 (0 : Fin 1) (0 : Fin 1))) (Ideal.ofBits .f32 0x00000000#32))
      = Ideal.exp (Ideal.ofBits .f32 0xBF800000#32 * Dk x0 x1 x2 i) := by
  rw [pay6_apply, pay3_apply, pay4_apply, Gb_ld, ld0_x1, ld1_x1, ld0_x2, ld1_x2]
  rfl

/-- REGION 1 at the ideal instance writes the score of the summed accumulators. -/
theorem out1_3_eq (x0 : Vec Ideal S2x64x64 .f32) (x1 : Vec Ideal S2x64x1 .f32) (x2 : Vec Ideal S2x1x1 .f32) :
    out1_3 (F := Ideal) x0 x1 x2 = fun _ => Spec.score (G x0) (Dk x0 x1 x2) := by
  have hz : (![0, 0] : Fin 2 → Nat) = fun _ => 0 := by
    funext a
    match a with
    | ⟨0, _⟩ => rfl
    | ⟨1, _⟩ => rfl
  unfold out1_3
  refine (View.canon_unit_zero hz inb_S1x1_S1x1_0_0 _).trans ?_
  funext y
  obtain ⟨u, w, rfl⟩ : ∃ (u : Fin 1) (w : Fin 1), y = ix2 u w := ⟨y 0, y 1, eq_ix2 y⟩
  rw [pay1_apply,
    Finset.sum_congr rfl fun i _ => pay8_apply (View.ld x0 r1_0) (View.ld x0 r1_1) i,
    Finset.sum_congr rfl fun i _ => diag_sum (View.ld x0 r1_0) (View.ld x0 r1_1) i,
    Finset.sum_congr rfl fun i _ => tgt_term x0 x1 x2 i,
    Gb_ld]
  rfl

end Cert.KernelIdeal.R1Payload

end
-- ==== Proof.R0Pieces.lean ====
/-
  Region 0's accumulators after one grid point, as values.

  At each grid point the body holds three accumulators — the 64 × 64 Gram block, the 64 inner products with the
  target, and the target's squared norm — and adds the tile's contribution to each. Two cases:
    * at a reset point (the first tile of a half) each accumulator is first overwritten with zeros, then read back,
      the tile's contribution added, and the sum stored: what is left is "zero block + contribution";
    * at any other point the accumulator is read as the point before left it, and "previous + contribution" is stored.
  In both cases the last store covers the whole accumulator through the full rectangle at zero offsets, so what the
  accumulator holds afterwards is that store's payload; a read through the same rectangle of a whole buffer reads its
  contents, and a read of what one covering store left reads that store's payload. Stated for every float
  interpretation.
-/
import proofs.«137065_j56899726737831_1_alg».proof.Proof.Gen.KernelIdeal.Frame
import proofs.«137065_j56899726737831_1_alg».proof.Proof.Gen.KernelIdeal.Skeleton
import Idealize.ShloMosaic.Lib.Pipeline.Value
import Idealize.ShloMosaic.Lib.Tactic

noncomputable section

namespace Cert.KernelIdeal.R0

open Idealize.ShloMosaic Idealize.ShloMosaic.TcCoe Idealize.ShloMosaic.Tactic Idealize.SL.Sem
open Cert.KernelIdeal Cert.KernelIdeal.Gen

variable {F : FTy → Type} [FloatOps F]

/-- The offsets of a full rank-3 rectangle are all zero. -/
theorem offsets3_zero : (![0, 0, 0] : Fin 3 → Nat) = fun _ => 0 := funext fun a => by fin_cases a <;> rfl

/-- The offsets of a full rank-2 rectangle are all zero. -/
theorem offsets2_zero : (![0, 0] : Fin 2 → Nat) = fun _ => 0 := funext fun a => by fin_cases a <;> rfl

/-! ## Reset points: zero block, then the tile's contribution -/

/-- At a reset point the Gram accumulator is left holding the zero block plus the tile's Gram contribution. -/
theorem out0_A_2_eq (c : Dev nD) (i : grid0.Coords) (arg2 : Memref sig .tc .vmem S64x16384 .f32) (harg2 : arg2.IsWhole) (arg3 : Memref sig .tc .vmem S1x16384 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (hc0 : cond0_0 i)
    (x0 : Vec F S64x16384 .f32) (x1 : Vec F S1x16384 .f32) :
    out0_A_2 c i arg2 harg2 arg3 harg3 arg4 harg4 arg5 harg5 arg6 harg6 hc0 x0 x1 = k0_pay7 x0 k0_pay2 := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_cons_unit_zero (S := S1x64x64) offsets3_zero, View.readCov_unit_zero (S := S1x64x64) _ offsets3_zero]
  simp only [View.readAt_eq_ld, harg2.read_unread, View.ld_unit_zero (S := S64x16384) offsets2_zero]

/-- At a reset point the inner-product accumulator is left holding the zero column plus the tile's products with the target. -/
theorem out0_A_3_eq (c : Dev nD) (i : grid0.Coords) (arg2 : Memref sig .tc .vmem S64x16384 .f32) (harg2 : arg2.IsWhole) (arg3 : Memref sig .tc .vmem S1x16384 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (hc0 : cond0_0 i)
    (x0 : Vec F S64x16384 .f32) (x1 : Vec F S1x16384 .f32) :
    out0_A_3 c i arg2 harg2 arg3 harg3 arg4 harg4 arg5 harg5 arg6 harg6 hc0 x0 x1 = k0_pay8 x0 x1 k0_pay3 := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero (S := S1x64x1) offsets3_zero, View.readCov_unit_zero (S := S1x64x1) _ offsets3_zero]
  simp only [View.readAt_eq_ld, harg2.read_unread, harg3.read_unread, View.ld_unit_zero (S := S64x16384) offsets2_zero, View.ld_unit_zero (S := S1x16384) offsets2_zero]

/-- At a reset point the norm accumulator is left holding zero plus the tile's share of the target's squared norm. -/
theorem out0_A_4_eq (c : Dev nD) (i : grid0.Coords) (arg2 : Memref sig .tc .vmem S64x16384 .f32) (harg2 : arg2.IsWhole) (arg3 : Memref sig .tc .vmem S1x16384 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (hc0 : cond0_0 i)
    (x0 : Vec F S64x16384 .f32) (x1 : Vec F S1x16384 .f32) :
    out0_A_4 c i arg2 harg2 arg3 harg3 arg4 harg4 arg5 harg5 arg6 harg6 hc0 x0 x1 = k0_pay1 (k0_pay9 x1 k0_pay4) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero (S := S1x1x1) offsets3_zero, View.readCov_unit_zero (S := S1x1x1) _ offsets3_zero]
  simp only [View.readAt_eq_ld, harg3.read_unread, View.ld_unit_zero (S := S1x16384) offsets2_zero]

/-! ## The other points: previous contents, then the tile's contribution -/

/-- At any other point the Gram accumulator is left holding its previous contents plus the tile's Gram contribution. -/
theorem out0_B_2_eq (c : Dev nD) (i : grid0.Coords) (arg2 : Memref sig .tc .vmem S64x16384 .f32) (harg2 : arg2.IsWhole) (arg3 : Memref sig .tc .vmem S1x16384 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (hc0 : ¬cond0_0 i)
    (x0 : Vec F S64x16384 .f32) (x1 : Vec F S1x16384 .f32) (xo2 : Vec F S1x64x64 .f32) (xo3 : Vec F S1x64x1 .f32) (xo4 : Vec F S1x1x1 .f32) :
    out0_B_2 c i arg2 harg2 arg3 harg3 arg4 harg4 arg5 harg5 arg6 harg6 hc0 x0 x1 xo2 xo3 xo4 = k0_pay7 x0 xo2 := by
  unfold out0_B_2
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_words
  rw [View.canon_unit_zero offsets3_zero]
  simp only [View.readAt_eq_ld, harg2.read_unread, harg4.read_unread, View.ld_unit_zero (S := S64x16384) offsets2_zero, View.ld_unit_zero (S := S1x64x64) offsets3_zero]

/-- At any other point the inner-product accumulator is left holding its previous contents plus the tile's products with the target. -/
theorem out0_B_3_eq (c : Dev nD) (i : grid0.Coords) (arg2 : Memref sig .tc .vmem S64x16384 .f32) (harg2 : arg2.IsWhole) (arg3 : Memref sig .tc .vmem S1x16384 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (hc0 : ¬cond0_0 i)
    (x0 : Vec F S64x16384 .f32) (x1 : Vec F S1x16384 .f32) (xo2 : Vec F S1x64x64 .f32) (xo3 : Vec F S1x64x1 .f32) (xo4 : Vec F S1x1x1 .f32) :
    out0_B_3 c i arg2 harg2 arg3 harg3 arg4 harg4 arg5 harg5 arg6 harg6 hc0 x0 x1 xo2 xo3 xo4 = k0_pay8 x0 x1 xo3 := by
  unfold out0_B_3
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_words
  rw [View.canon_unit_zero offsets3_zero]
  simp only [View.readAt_eq_ld, harg2.read_unread, harg3.read_unread, harg5.read_unread, View.ld_unit_zero (S := S64x16384) offsets2_zero, View.ld_unit_zero (S := S1x16384) offsets2_zero, View.ld_unit_zero (S := S1x64x1) offsets3_zero]

/-- At any other point the norm accumulator is left holding its previous contents plus the tile's share of the target's squared norm. -/
theorem out0_B_4_eq (c : Dev nD) (i : grid0.Coords) (arg2 : Memref sig .tc .vmem S64x16384 .f32) (harg2 : arg2.IsWhole) (arg3 : Memref sig .tc .vmem S1x16384 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (hc0 : ¬cond0_0 i)
    (x0 : Vec F S64x16384 .f32) (x1 : Vec F S1x16384 .f32) (xo2 : Vec F S1x64x64 .f32) (xo3 : Vec F S1x64x1 .f32) (xo4 : Vec F S1x1x1 .f32) :
    out0_B_4 c i arg2 harg2 arg3 harg3 arg4 harg4 arg5 harg5 arg6 harg6 hc0 x0 x1 xo2 xo3 xo4 = k0_pay1 (k0_pay9 x1 xo4) := by
  unfold out0_B_4
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_words
  rw [View.canon_unit_zero offsets3_zero]
  simp only [View.readAt_eq_ld, harg3.read_unread, harg6.read_unread, View.ld_unit_zero (S := S1x16384) offsets2_zero, View.ld_unit_zero (S := S1x1x1) offsets3_zero]

end Cert.KernelIdeal.R0

end
-- ==== Proof.R0Payload.lean ====
/-
  Region 0's payloads read at an index, at the ideal values (extended reals, exact operations, changes of float
  format the identity).

  Each grid step of region 0 holds one tile of the samples, `x0` (64 rows of 16384 columns), and the matching tile of
  the target, `x1` (one row of 16384 columns), and updates three accumulators:
    * the Gram accumulator, entry `(i, j)`: what it held plus `∑ y, x0 i y * x0 j y` — the tile times its own
      transpose, a product contracting the column axis of both operands into a zero start value;
    * the accumulator of the inner products with the target, entry `i`: what it held plus `∑ y, x0 i y * x1 0 y` —
      the target's row repeated over the 64 rows, an entrywise product, and a sum along the columns;
    * the accumulator of the target's squared norm: what it held plus `∑ y, x1 0 y * x1 0 y`.
  At the first tile of a half the three accumulators are reset to zero.
  The accumulators carry a leading unit axis that the arithmetic drops and puts back; a unit axis has the one
  coordinate `0`, so the statements hold at any coordinate given for it.
-/
import proofs.«137065_j56899726737831_1_alg».proof.Proof.Gen.KernelIdeal.Skeleton
import proofs.«137065_j56899726737831_1_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.R0Payload

open Idealize.ShloMosaic Idealize.ShloMosaic.ValueIdx Cert.KernelIdeal Cert.KernelIdeal.Gen

/-! ## A vector cast to a column -/

section Column
variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Column

/-! ## The resets: the zero accumulators -/

/-- The Gram accumulator's reset value is zero everywhere. -/
theorem pay2_apply (z : Fin 1) (i j : Fin 64) : k0_pay2 (F := Ideal) (ix3 z i j) = 0 := by
  unfold k0_pay2
  refine (shapeCast_ab_1ab_apply _ _ z i j).trans ?_
  rw [broadcast_apply]
  exact Ideal.ofBits_zero_f32

/-- The reset value of the inner products with the target is zero everywhere. -/
theorem pay3_apply (z : Fin 1) (i : Fin 64) (z' : Fin 1) : k0_pay3 (F := Ideal) (ix3 z i z') = 0 := by
  unfold k0_pay3
  refine (shapeCast_ab_1ab_apply _ _ z i z').trans ?_
  rw [broadcast_apply]
  exact Ideal.ofBits_zero_f32

/-- The reset value of the target's squared norm is zero. -/
theorem pay4_apply (z z' z'' : Fin 1) : k0_pay4 (F := Ideal) (ix3 z z' z'') = 0 := by
  unfold k0_pay4
  refine (shapeCast_ab_1ab_apply _ _ z z' z'').trans ?_
  rw [broadcast_apply]
  exact Ideal.ofBits_zero_f32

/-! ## The tile times its own transpose

The product contracts axis 1 of both operands: at output index `(i, j)` and contraction position `y` the left
operand is read at `(i, y)` and the right operand at `(j, y)`: four coordinate facts, one per operand axis. -/

/-- Left operand, row axis: the output's row. -/
theorem lhs_gram_0 (j : S64x64.Idx) (k : dot_S64x16384_S64x16384_S64x64_1_1_0_0_n_n.contr.Idx) :
    (dot_S64x16384_S64x16384_S64x64_1_1_0_0_n_n.lhsIdx j k 0).val = (j 0).val := by
  simp [DotDims.lhsIdx, dot_S64x16384_S64x16384_S64x64_1_1_0_0_n_n]; rfl

/-- Left operand, column axis: the contraction position. -/
theorem lhs_gram_1 (j : S64x64.Idx) (k : dot_S64x16384_S64x16384_S64x64_1_1_0_0_n_n.contr.Idx) :
    (dot_S64x16384_S64x16384_S64x64_1_1_0_0_n_n.lhsIdx j k 1).val = (k ⟨0, by decide⟩).val :=
  dot_S64x16384_S64x16384_S64x64_1_1_0_0_n_n.lhsIdx_val_of_single rfl j k

/-- Right operand, row axis: the output's column. -/
theorem rhs_gram_0 (j : S64x64.Idx) (k : dot_S64x16384_S64x16384_S64x64_1_1_0_0_n_n.contr.Idx) :
    (dot_S64x16384_S64x16384_S64x64_1_1_0_0_n_n.rhsIdx j k 0).val = (j 1).val := by
  simp [DotDims.rhsIdx, dot_S64x16384_S64x16384_S64x64_1_1_0_0_n_n]; rfl

/-- Right operand, column axis: the contraction position. -/
theorem rhs_gram_1 (j : S64x64.Idx) (k : dot_S64x16384_S64x16384_S64x64_1_1_0_0_n_n.contr.Idx) :
    (dot_S64x16384_S64x16384_S64x64_1_1_0_0_n_n.rhsIdx j k 1).val = (k ⟨0, by decide⟩).val :=
  dot_S64x16384_S64x16384_S64x64_1_1_0_0_n_n.rhsIdx_val_of_single rfl j k

/-- A 64 × 16384 tile times its own transpose, from a zero start value: entry `(i, j)` is the inner product of rows
    `i` and `j`. The sum over the contraction index is re-indexed by its one coordinate. -/
theorem gramTile_apply (x : FVec Ideal S64x16384 .bf16) (i j : Fin 64) :
    matmul dot_S64x16384_S64x16384_S64x64_1_1_0_0_n_n none x x (constant S64x64 .f32 0x00000000#32) (ix2 i j)
      = ∑ y : Fin 16384, x (ix2 i y) * x (ix2 j y) := by
  show FloatOps.matmul _ none x x (constant S64x64 .f32 0x00000000#32) (ix2 i j) = _
  rw [Ideal.matmul_constant_zero_apply,
    ← Equiv.sum_comp (contrEquiv1 dot_S64x16384_S64x16384_S64x64_1_1_0_0_n_n 16384 rfl rfl).symm]
  refine Finset.sum_congr rfl fun y _ => ?_
  have hy := contrEquiv1_symm_val dot_S64x16384_S64x16384_S64x64_1_1_0_0_n_n 16384 rfl rfl y
  have hl : dot_S64x16384_S64x16384_S64x64_1_1_0_0_n_n.lhsIdx (ix2 i j)
      ((contrEquiv1 dot_S64x16384_S64x16384_S64x64_1_1_0_0_n_n 16384 rfl rfl).symm y) = ix2 i y := by
    funext ax; apply Fin.ext
    match ax with
    | ⟨0, _⟩ => exact lhs_gram_0 _ _
    | ⟨1, _⟩ => exact (lhs_gram_1 _ _).trans hy
  have hr : dot_S64x16384_S64x16384_S64x64_1_1_0_0_n_n.rhsIdx (ix2 i j)
      ((contrEquiv1 dot_S64x16384_S64x16384_S64x64_1_1_0_0_n_n 16384 rfl rfl).symm y) = ix2 j y := by
    funext ax; apply Fin.ext
    match ax with
    | ⟨0, _⟩ => exact rhs_gram_0 _ _
    | ⟨1, _⟩ => exact (rhs_gram_1 _ _).trans hy
  rw [hl, hr]

/-- The Gram accumulator's update: what it held plus the inner product of the tile's rows `i` and `j`. The narrowing
    of the tile to a shorter float format changes nothing at the ideal values. -/
theorem pay7_apply (x0 : Vec Ideal S64x16384 .f32) (v9 : Vec Ideal S1x64x64 .f32) (z : Fin 1) (i j : Fin 64) :
    k0_pay7 x0 v9 (ix3 z i j) = v9 (ix3 z i j) + ∑ y : Fin 16384, x0 (ix2 i y) * x0 (ix2 j y) := by
  unfold k0_pay7 k0_pay5
  refine (shapeCast_ab_1ab_apply _ _ z i j).trans ?_
  rw [addf_apply]
  refine congrArg₂ (· + ·) ?_ ?_
  · refine (shapeCast_1ab_ab_apply _ _ i j).trans ?_
    exact congrArg v9 (by rw [Subsingleton.elim z 0])
  · refine (gramTile_apply _ i j).trans ?_
    refine Finset.sum_congr rfl fun y _ => ?_
    rw [truncf_apply, truncf_apply, shapeCast_self]

/-! ## The sums along the columns -/

/-- Putting the column coordinate `y` back into the row index `i` of the 64 × 16384 tile gives `(i, y)`. -/
theorem lift_row (i : Fin 64) (y : Fin 16384) : (reduces_S64x16384_S64).lift (ix1 i) y = ix2 i y := by
  funext ax
  match ax with
  | ⟨0, _⟩ => rfl
  | ⟨1, _⟩ => rfl

/-- The sum of a 64 × 16384 tile along its columns, at row `i`. -/
theorem rowSum_apply (v : FVec Ideal S64x16384 .f32) (i : Fin 64) :
    multiReduction (F := Ideal) .add [1] S64 v 0x00000000#32 reduces_S64x16384_S64 (.inl rfl) rfl (ix1 i)
      = ∑ y : Fin 16384, v (ix2 i y) := by
  refine (Ideal.multiReduction_add_single v _ _ _ _ (ix1 i)).trans ?_
  exact Finset.sum_congr rfl fun y _ => congrArg v (lift_row i y)

/-- The same for the one-row tile of the target. -/
theorem lift_row1 (u : Fin 1) (y : Fin 16384) : (reduces_S1x16384_S1).lift (ix1 u) y = ix2 u y := by
  funext ax
  match ax with
  | ⟨0, _⟩ => rfl
  | ⟨1, _⟩ => rfl

/-- The sum of a 1 × 16384 tile along its columns. -/
theorem rowSum1_apply (v : FVec Ideal S1x16384 .f32) (u : Fin 1) :
    multiReduction (F := Ideal) .add [1] S1 v 0x00000000#32 reduces_S1x16384_S1 (.inl rfl) rfl (ix1 u)
      = ∑ y : Fin 16384, v (ix2 u y) := by
  refine (Ideal.multiReduction_add_single v _ _ _ _ (ix1 u)).trans ?_
  exact Finset.sum_congr rfl fun y _ => congrArg v (lift_row1 u y)

/-- The update of the inner products with the target: what entry `i` held plus the inner product of the tile's row
    `i` with the target's tile. -/
theorem pay8_apply (x0 : Vec Ideal S64x16384 .f32) (x1 : Vec Ideal S1x16384 .f32) (v15 : Vec Ideal S1x64x1 .f32)
    (z : Fin 1) (i : Fin 64) (z' : Fin 1) :
    k0_pay8 x0 x1 v15 (ix3 z i z') = v15 (ix3 z i z') + ∑ y : Fin 16384, x0 (ix2 i y) * x1 (ix2 (0 : Fin 1) y) := by
  unfold k0_pay8 k0_pay5 k0_pay6
  refine (shapeCast_ab_1ab_apply _ _ z i z').trans ?_
  rw [addf_apply]
  refine congrArg₂ (· + ·) ?_ ?_
  · refine (shapeCast_1ab_ab_apply _ _ i z').trans ?_
    exact congrArg v15 (by rw [Subsingleton.elim z 0])
  · refine (shapeCast_a_a1_apply _ _ i z').trans ?_
    refine (rowSum_apply _ i).trans ?_
    refine Finset.sum_congr rfl fun y _ => ?_
    rw [mulf_apply, shapeCast_self, shapeCast_self, broadcastTo_1b_ab_apply]

/-- The update of the target's squared norm, as the region stores it: what the accumulator held plus the inner product
    of the target's tile with itself. -/
theorem pay91_apply (x1 : Vec Ideal S1x16384 .f32) (v25 : Vec Ideal S1x1x1 .f32) (z z' z'' : Fin 1) :
    k0_pay1 (k0_pay9 x1 v25) (ix3 z z' z'')
      = v25 (ix3 z z' z'') + ∑ y : Fin 16384, x1 (ix2 (0 : Fin 1) y) * x1 (ix2 (0 : Fin 1) y) := by
  unfold k0_pay1 k0_pay9 k0_pay6
  refine (shapeCast_ab_1ab_apply _ _ z z' z'').trans ?_
  rw [addf_apply]
  refine congrArg₂ (· + ·) ?_ ?_
  · refine (shapeCast_1ab_ab_apply _ _ z' z'').trans ?_
    exact congrArg v25 (by rw [Subsingleton.elim z 0])
  · refine (shapeCast_a_a1_apply _ _ z' z'').trans ?_
    refine (rowSum1_apply _ z').trans ?_
    refine Finset.sum_congr rfl fun y _ => ?_
    rw [mulf_apply, shapeCast_self, Subsingleton.elim z' 0]

end Cert.KernelIdeal.R0Payload

end
-- ==== Proof.R0Value.lean ====
/-
  Region 0's three output arrays after its run, at the ideal instance.

  The region streams the 64 sample rows `X` (each 524288 long) and the target row `t` in 32 tiles of 16384 columns,
  the tiles numbered `n = 16 p + k` by half `p` (of two) and position `k` (of sixteen) within the half. Tile `n`
  holds the columns `16384 n + y`, `y < 16384` (`blkX_apply`, `blkT_apply`: a block's coordinate is its block index
  times the block size plus the coordinate inside the block, and the block index of tile `n` on the long axis is `n`).

  Per half the body keeps three accumulators: the Gram sums `∑ X_i X_j`, the products `∑ X_i t` and `∑ t t`. At the
  first tile of a half (`n ≡ 0 mod 16`) each is reset to zero and that tile's sums are added (`*_reset`); at every
  other tile that tile's sums are added to what the tile before left (`*_step`). By induction on `k`, after tile
  `16 p + k` each holds the sums over tiles `16 p … 16 p + k` (`*_acc`): a sum over `Finset.range (k + 1)`.

  The accumulators are written back only at the last tile of a half (`n ≡ 15 mod 16`), into block `p = n / 16` of the
  output's leading axis (`*_flushed`); the two blocks cover the output (`*_cover`), so entry `p` of each output array
  is the sum over the sixteen tiles of half `p`, that is over the columns `Spec.col p k y` (`arr2`, `arr3`, `arr4`).
-/
import proofs.«137065_j56899726737831_1_alg».proof.Proof.Gen.KernelIdeal.Frame
import proofs.«137065_j56899726737831_1_alg».proof.Proof.Spec
import proofs.«137065_j56899726737831_1_alg».proof.Proof.R0Pieces
import proofs.«137065_j56899726737831_1_alg».proof.Proof.R0Payload
import Idealize.ShloMosaic.Lib.ValueIdx
import Idealize.ShloMosaic.Lib.Pipeline.Value

set_option maxRecDepth 16384

noncomputable section

open scoped BigOperators

namespace Cert.KernelIdeal.R0Value

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The samples' rows as the region finds them, and the target's row. -/
abbrev arrX (c : Dev nD) : S64x524288.Idx → EReal := V c main_v0
abbrev arrT (c : Dev nD) : S1x524288.Idx → EReal := V c main_v1
/-- Tile `t` of each, as the body loads it. -/
abbrev blkX (c : Dev nD) (t : Fin cfg0.N) : Vec Ideal S64x16384 .f32 := iblk0 V c 0 t
abbrev blkT (c : Dev nD) (t : Fin cfg0.N) : Vec Ideal S1x16384 .f32 := iblk0 V c 1 t

/-- Column `y` of tile `n`: `16384 n + y` (reduced into range, so that it is a function of every natural). -/
def colN (n : ℕ) (y : Fin 16384) : Fin 524288 := ⟨(16384 * n + y.val) % 524288, Nat.mod_lt _ (by norm_num)⟩

theorem idxX : ∀ t : Fin cfg0.N, win0_0.index t (0 : Fin 2) = 0 ∧ win0_0.index t (1 : Fin 2) = t.val :=
  (by decide +kernel : ∀ t : Fin grid0.N, _)
theorem idxT : ∀ t : Fin cfg0.N, win0_1.index t (0 : Fin 2) = 0 ∧ win0_1.index t (1 : Fin 2) = t.val :=
  (by decide +kernel : ∀ t : Fin grid0.N, _)

theorem blkX_apply (c : Dev nD) (t : Fin cfg0.N) (i : Fin 64) (y : Fin 16384) :
    blkX V c t (ix2 i y) = arrX V c (ix2 i (colN t.val y)) := by
  obtain ⟨e0, e1⟩ := idxX t
  have hN : t.val < 32 := lt_of_lt_of_eq t.isLt (show cfg0.N = 32 from N_0)
  show V c main_v0 (((cfg0.win 0).blk t).view.emb (ix2 i y)) = V c main_v0 (ix2 i (colN t.val y))
  refine congrArg (V c main_v0) ?_
  funext a; apply Fin.ext
  match a with
  | ⟨0, _⟩ => show win0_0.index t (0 : Fin 2) * 64 + 1 * i.val = i.val; omega
  | ⟨1, _⟩ => show win0_0.index t (1 : Fin 2) * 16384 + 1 * y.val = (16384 * t.val + y.val) % 524288; have := y.isLt; omega

theorem blkT_apply (c : Dev nD) (t : Fin cfg0.N) (y : Fin 16384) :
    blkT V c t (ix2 (0 : Fin 1) y) = arrT V c (ix2 (0 : Fin 1) (colN t.val y)) := by
  obtain ⟨e0, e1⟩ := idxT t
  have hN : t.val < 32 := lt_of_lt_of_eq t.isLt (show cfg0.N = 32 from N_0)
  show V c main_v1 (((cfg0.win 1).blk t).view.emb (ix2 (0 : Fin 1) y)) = V c main_v1 (ix2 (0 : Fin 1) (colN t.val y))
  refine congrArg (V c main_v1) ?_
  funext a; apply Fin.ext
  match a with
  | ⟨0, _⟩ => show win0_1.index t (0 : Fin 2) * 1 + 1 * (0 : Fin 1).val = (0 : Fin 1).val; omega
  | ⟨1, _⟩ => show win0_1.index t (1 : Fin 2) * 16384 + 1 * y.val = (16384 * t.val + y.val) % 524288; have := y.isLt; omega

/-- One tile's contribution to the Gram entry `(i, j)`, to row `i`'s product with the target, to the target's norm. -/
def tileXX (A : S64x524288.Idx → EReal) (i j : Fin 64) (n : ℕ) : EReal :=
  ∑ y : Fin 16384, A (ix2 i (colN n y)) * A (ix2 j (colN n y))
def tileXT (A : S64x524288.Idx → EReal) (B : S1x524288.Idx → EReal) (i : Fin 64) (n : ℕ) : EReal :=
  ∑ y : Fin 16384, A (ix2 i (colN n y)) * B (ix2 (0 : Fin 1) (colN n y))
def tileTT (B : S1x524288.Idx → EReal) (n : ℕ) : EReal :=
  ∑ y : Fin 16384, B (ix2 (0 : Fin 1) (colN n y)) * B (ix2 (0 : Fin 1) (colN n y))

/-- The loaded tiles' sums of products are the arrays' over that tile's columns. -/
theorem sumXX (c : Dev nD) (t : Fin cfg0.N) (i j : Fin 64) :
    (∑ y : Fin 16384, blkX V c t (ix2 i y) * blkX V c t (ix2 j y)) = tileXX (arrX V c) i j t.val :=
  Finset.sum_congr rfl fun y _ => by simp only [blkX_apply]
theorem sumXT (c : Dev nD) (t : Fin cfg0.N) (i : Fin 64) :
    (∑ y : Fin 16384, blkX V c t (ix2 i y) * blkT V c t (ix2 (0 : Fin 1) y)) = tileXT (arrX V c) (arrT V c) i t.val :=
  Finset.sum_congr rfl fun y _ => by simp only [blkX_apply, blkT_apply]
theorem sumTT (c : Dev nD) (t : Fin cfg0.N) :
    (∑ y : Fin 16384, blkT V c t (ix2 (0 : Fin 1) y) * blkT V c t (ix2 (0 : Fin 1) y)) = tileTT (arrT V c) t.val :=
  Finset.sum_congr rfl fun y _ => by simp only [blkT_apply]

/-! ## The Gram sums (output window 2) -/

/-- At the first tile of a half the Gram accumulator is reset and holds that tile's sums; -/
theorem gram_reset (c : Dev nD) (t : Fin cfg0.N) (h0 : t.val % 16 = 0) (z : Fin 1) (i j : Fin 64) :
    (outsAt0 V c t.val t.isLt).1 (ix3 z i j) = tileXX (arrX V c) i j t.val := by
  rw [outsAt0_A V c t h0]
  dsimp only
  refine (congrFun (R0.out0_A_2_eq (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (blkX V c t) (blkT V c t)) (ix3 z i j)).trans ?_
  refine (R0Payload.pay7_apply (blkX V c t) (k0_pay2 (F := Ideal)) z i j).trans ?_
  rw [R0Payload.pay2_apply z i j, zero_add]
  exact sumXX V c t i j

/-- at every later tile it adds that tile's sums to what the tile before left. -/
theorem gram_step (c : Dev nD) (t : Fin cfg0.N) (h0 : ¬t.val % 16 = 0) (z : Fin 1) (i j : Fin 64) :
    (outsAt0 V c t.val t.isLt).1 (ix3 z i j)
      = (outsAt0 V c (t.val - 1) (Nat.lt_of_le_of_lt (Nat.sub_le _ _) t.isLt)).1 (ix3 z i j) + tileXX (arrX V c) i j t.val := by
  rw [outsAt0_B V c t h0]
  dsimp only
  refine (congrFun (R0.out0_B_2_eq (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (blkX V c t) (blkT V c t)
    (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix3 z i j)).trans ?_
  refine (R0Payload.pay7_apply (blkX V c t) _ z i j).trans ?_
  exact congrArg _ (sumXX V c t i j)

/-- So after tile `k` of half `p` the Gram accumulator holds the sums over tiles `0 … k` of that half. -/
theorem gram_acc (c : Dev nD) (p : ℕ) (z : Fin 1) (i j : Fin 64) :
    ∀ (k : ℕ) (h : 16 * p + k < cfg0.N), k < 16 →
      (outsAt0 V c (16 * p + k) h).1 (ix3 z i j) = ∑ s ∈ Finset.range (k + 1), tileXX (arrX V c) i j (16 * p + s)
  | 0, h, _ => by
    rw [Finset.sum_range_one]
    exact gram_reset V c ⟨16 * p + 0, h⟩ (by dsimp only; omega) z i j
  | k + 1, h, hk => by
    rw [Finset.sum_range_succ, ← gram_acc c p z i j k (Nat.lt_of_succ_lt h) (Nat.lt_of_succ_lt hk)]
    exact gram_step V c ⟨16 * p + (k + 1), h⟩ (by dsimp only; omega) z i j

/-- What each output array ends holding: entry `p` of the leading axis is the sum over half `p`'s sixteen tiles. -/
def gramSum (A : S64x524288.Idx → EReal) (p : Fin 2) (i j : Fin 64) : EReal :=
  ∑ k : Fin 16, ∑ y : Fin 16384, A (ix2 i (Spec.col p k y)) * A (ix2 j (Spec.col p k y))
def gramArr (A : S64x524288.Idx → EReal) : S2x64x64.Idx → EReal := fun q => gramSum A (q 0) (q 1) (q 2)

/-- The output windows' block index at point `t` is `(t / 16, 0, 0)`: decided over the grid. -/
theorem idxG : ∀ t : Fin cfg0.N, win0_2.index t (0 : Fin 3) = t.val / 16 ∧ win0_2.index t (1 : Fin 3) = 0 ∧ win0_2.index t (2 : Fin 3) = 0 :=
  (by decide +kernel : ∀ t : Fin grid0.N, _)

/-- The columns of tile `16 p + k` are `Spec.col p k`. -/
theorem colN_eq (p : Fin 2) (k : Fin 16) (y : Fin 16384) : colN (16 * p.val + k.val) y = Spec.col p k y :=
  Fin.ext (by
    show (16384 * (16 * p.val + k.val) + y.val) % 524288 = 16384 * (16 * p.val + k.val) + y.val
    have := p.isLt; have := k.isLt; have := y.isLt; omega)

/-- The sixteen tiles' sums, as the sum over `Spec.col`. -/
theorem gram_range (A : S64x524288.Idx → EReal) (p : Fin 2) (i j : Fin 64) :
    (∑ s ∈ Finset.range (15 + 1), tileXX A i j (16 * p.val + s)) = gramSum A p i j := by
  rw [Finset.sum_range]
  refine Finset.sum_congr rfl fun k _ => ?_
  unfold tileXX
  refine Finset.sum_congr rfl fun y _ => ?_
  rw [colN_eq p k y]

/-- A run-time point's contents depend on the point only. -/
theorem outsAt_congr (c : Dev nD) (n n' : ℕ) (hn : n < cfg0.N) (hn' : n' < cfg0.N) (e : n = n') :
    outsAt0 V c n hn = outsAt0 V c n' hn' := by subst e; rfl

/-- WHAT THE LAST TILE OF A HALF WRITES BACK is that half's block of `gramArr`. -/
theorem gram_flushed (c : Dev nD) (t : Fin cfg0.N) (hf : (cfg0.win 2).flush t = true) :
    (dat0 V c).flushed 2 t = ((cfg0.win 2).blk t).view.read (Elt Ideal) (gramArr (arrX V c)) := by
  have hN : t.val < 32 := lt_of_lt_of_eq t.isLt (show cfg0.N = 32 from N_0)
  have h15 : t.val % 16 = 15 := (flush0_2 t).mp hf
  obtain ⟨e0, e1, e2⟩ := idxG t
  show (cfg0.win 2).cut (grid0.coords t) ((dat0 V c).after 2 t) = _
  rw [after0_2]
  funext q
  obtain ⟨z, r, s, rfl⟩ : ∃ (z : Fin 1) (r s : Fin 64), q = ix3 z r s := ⟨q 0, q 1, q 2, eq_ix3 q⟩
  have hz : z.val = 0 := by have := z.isLt; omega
  have hemb : ((cfg0.win 2).blk t).view.emb (ix3 z r s) = ix3 (⟨t.val / 16, by omega⟩ : Fin 2) r s := by
    funext a; apply Fin.ext
    match a with
    | ⟨0, _⟩ => show win0_2.index t (0 : Fin 3) * 1 + 1 * z.val = t.val / 16; omega
    | ⟨1, _⟩ => show win0_2.index t (1 : Fin 3) * 64 + 1 * r.val = r.val; omega
    | ⟨2, _⟩ => show win0_2.index t (2 : Fin 3) * 64 + 1 * s.val = s.val; omega
  show (outsAt0 V c t.val t.isLt).1 (ix3 z r s) = gramArr (arrX V c) (((cfg0.win 2).blk t).view.emb (ix3 z r s))
  rw [hemb]
  show _ = gramSum (arrX V c) (⟨t.val / 16, by omega⟩ : Fin 2) r s
  rw [← gram_range (arrX V c) (⟨t.val / 16, by omega⟩ : Fin 2) r s,
    outsAt_congr V c t.val (16 * (t.val / 16) + 15) t.isLt (lt_of_lt_of_eq (by omega) (show cfg0.N = 32 from N_0).symm) (by omega)]
  exact gram_acc V c (t.val / 16) z r s 15 _ (by norm_num)

/-- An index of the Gram output is in point `t`'s block iff each coordinate is in the block's range on its axis. -/
theorem gram_mem_blk (t : Fin cfg0.N) (q : S2x64x64.Idx) :
    q ∈ ((cfg0.win 2).blk t).view.set ↔ ∀ a : Fin 3, win0_2.index t a * S1x64x64.size a ≤ (q a).val ∧ (q a).val < win0_2.index t a * S1x64x64.size a + S1x64x64.size a := by
  show q ∈ ((View.whole main_v2_0).slice (win0_2.rect t)).set ↔ _
  rw [View.set_slice_whole, Rect.mem_set_unit]
  exact Iff.rfl

/-- Every entry `(p, i, j)` lies in the block the last tile of half `p` writes back. -/
theorem gram_cover (q : S2x64x64.Idx) : ∃ t : Fin cfg0.N, (cfg0.win 2).flush t = true ∧ q ∈ ((cfg0.win 2).blk t).view.set := by
  have h0 : (q 0).val < 2 := (q 0).isLt
  have h1 : (q 1).val < 64 := (q 1).isLt
  have h2 : (q 2).val < 64 := (q 2).isLt
  refine ⟨⟨16 * (q 0).val + 15, lt_of_lt_of_eq (by omega) (show cfg0.N = 32 from N_0).symm⟩, (flush0_2 _).mpr (by dsimp only; omega), ?_⟩
  rw [gram_mem_blk]
  obtain ⟨e0, e1, e2⟩ := idxG ⟨16 * (q 0).val + 15, lt_of_lt_of_eq (by omega) (show cfg0.N = 32 from N_0).symm⟩
  dsimp only at e0
  intro a
  match a with
  | ⟨0, _⟩ => show win0_2.index _ (0 : Fin 3) * 1 ≤ (q 0).val ∧ (q 0).val < win0_2.index _ (0 : Fin 3) * 1 + 1; omega
  | ⟨1, _⟩ => show win0_2.index _ (1 : Fin 3) * 64 ≤ (q 1).val ∧ (q 1).val < win0_2.index _ (1 : Fin 3) * 64 + 64; omega
  | ⟨2, _⟩ => show win0_2.index _ (2 : Fin 3) * 64 ≤ (q 2).val ∧ (q 2).val < win0_2.index _ (2 : Fin 3) * 64 + 64; omega

/-- THE GRAM OUTPUT after the region. -/
theorem gram_final (c : Dev nD) : (dat0 V c).arrAt 2 cfg0.N = gramArr (arrX V c) :=
  (dat0 V c).arrAt_eq_of_cover 2 (gramArr (arrX V c)) (gram_flushed V c) gram_cover

theorem arr2 (c : Dev nD) (p : Fin 2) (i j : Fin 64) :
    ((dat0 (F := Ideal) V c).arrAt 2 cfg0.N (ix3 p i j) : EReal)
      = (∑ k : Fin 16, ∑ y : Fin 16384, arrX V c (ix2 i (Spec.col p k y)) * arrX V c (ix2 j (Spec.col p k y)) : EReal) :=
  congrFun (gram_final V c) (ix3 p i j)

/-! ## The rows' products with the target (output window 3) -/

/-- At the first tile of a half the accumulator is reset and holds that tile's sums; -/
theorem xt_reset (c : Dev nD) (t : Fin cfg0.N) (h0 : t.val % 16 = 0) (z : Fin 1) (i : Fin 64) (z' : Fin 1) :
    (outsAt0 V c t.val t.isLt).2.1 (ix3 z i z') = tileXT (arrX V c) (arrT V c) i t.val := by
  rw [outsAt0_A V c t h0]
  dsimp only
  refine (congrFun (R0.out0_A_3_eq (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (blkX V c t) (blkT V c t)) (ix3 z i z')).trans ?_
  refine (R0Payload.pay8_apply (blkX V c t) (blkT V c t) (k0_pay3 (F := Ideal)) z i z').trans ?_
  rw [R0Payload.pay3_apply z i z', zero_add]
  exact sumXT V c t i

/-- at every later tile it adds that tile's sums to what the tile before left. -/
theorem xt_step (c : Dev nD) (t : Fin cfg0.N) (h0 : ¬t.val % 16 = 0) (z : Fin 1) (i : Fin 64) (z' : Fin 1) :
    (outsAt0 V c t.val t.isLt).2.1 (ix3 z i z')
      = (outsAt0 V c (t.val - 1) (Nat.lt_of_le_of_lt (Nat.sub_le _ _) t.isLt)).2.1 (ix3 z i z') + tileXT (arrX V c) (arrT V c) i t.val := by
  rw [outsAt0_B V c t h0]
  dsimp only
  refine (congrFun (R0.out0_B_3_eq (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (blkX V c t) (blkT V c t)
    (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix3 z i z')).trans ?_
  refine (R0Payload.pay8_apply (blkX V c t) (blkT V c t) _ z i z').trans ?_
  exact congrArg _ (sumXT V c t i)

/-- So after tile `k` of half `p` it holds the sums over tiles `0 … k` of that half. -/
theorem xt_acc (c : Dev nD) (p : ℕ) (z : Fin 1) (i : Fin 64) (z' : Fin 1) :
    ∀ (k : ℕ) (h : 16 * p + k < cfg0.N), k < 16 →
      (outsAt0 V c (16 * p + k) h).2.1 (ix3 z i z') = ∑ s ∈ Finset.range (k + 1), tileXT (arrX V c) (arrT V c) i (16 * p + s)
  | 0, h, _ => by
    rw [Finset.sum_range_one]
    exact xt_reset V c ⟨16 * p + 0, h⟩ (by dsimp only; omega) z i z'
  | k + 1, h, hk => by
    rw [Finset.sum_range_succ, ← xt_acc c p z i z' k (Nat.lt_of_succ_lt h) (Nat.lt_of_succ_lt hk)]
    exact xt_step V c ⟨16 * p + (k + 1), h⟩ (by dsimp only; omega) z i z'

def xtSum (A : S64x524288.Idx → EReal) (B : S1x524288.Idx → EReal) (p : Fin 2) (i : Fin 64) : EReal :=
  ∑ k : Fin 16, ∑ y : Fin 16384, A (ix2 i (Spec.col p k y)) * B (ix2 (0 : Fin 1) (Spec.col p k y))
def xtArr (A : S64x524288.Idx → EReal) (B : S1x524288.Idx → EReal) : S2x64x1.Idx → EReal := fun q => xtSum A B (q 0) (q 1)

theorem idxXT : ∀ t : Fin cfg0.N, win0_3.index t (0 : Fin 3) = t.val / 16 ∧ win0_3.index t (1 : Fin 3) = 0 ∧ win0_3.index t (2 : Fin 3) = 0 :=
  (by decide +kernel : ∀ t : Fin grid0.N, _)

theorem xt_range (A : S64x524288.Idx → EReal) (B : S1x524288.Idx → EReal) (p : Fin 2) (i : Fin 64) :
    (∑ s ∈ Finset.range (15 + 1), tileXT A B i (16 * p.val + s)) = xtSum A B p i := by
  rw [Finset.sum_range]
  refine Finset.sum_congr rfl fun k _ => ?_
  unfold tileXT
  refine Finset.sum_congr rfl fun y _ => ?_
  rw [colN_eq p k y]

/-- WHAT THE LAST TILE OF A HALF WRITES BACK is that half's block of `xtArr`. -/
theorem xt_flushed (c : Dev nD) (t : Fin cfg0.N) (hf : (cfg0.win 3).flush t = true) :
    (dat0 V c).flushed 3 t = ((cfg0.win 3).blk t).view.read (Elt Ideal) (xtArr (arrX V c) (arrT V c)) := by
  have hN : t.val < 32 := lt_of_lt_of_eq t.isLt (show cfg0.N = 32 from N_0)
  have h15 : t.val % 16 = 15 := (flush0_3 t).mp hf
  obtain ⟨e0, e1, e2⟩ := idxXT t
  show (cfg0.win 3).cut (grid0.coords t) ((dat0 V c).after 3 t) = _
  rw [after0_3]
  funext q
  obtain ⟨z, r, z', rfl⟩ : ∃ (z : Fin 1) (r : Fin 64) (z' : Fin 1), q = ix3 z r z' := ⟨q 0, q 1, q 2, eq_ix3 q⟩
  have hz : z.val = 0 := by have := z.isLt; omega
  have hemb : ((cfg0.win 3).blk t).view.emb (ix3 z r z') = ix3 (⟨t.val / 16, by omega⟩ : Fin 2) r z' := by
    funext a; apply Fin.ext
    match a with
    | ⟨0, _⟩ => show win0_3.index t (0 : Fin 3) * 1 + 1 * z.val = t.val / 16; omega
    | ⟨1, _⟩ => show win0_3.index t (1 : Fin 3) * 64 + 1 * r.val = r.val; omega
    | ⟨2, _⟩ => show win0_3.index t (2 : Fin 3) * 1 + 1 * z'.val = z'.val; omega
  show (outsAt0 V c t.val t.isLt).2.1 (ix3 z r z') = xtArr (arrX V c) (arrT V c) (((cfg0.win 3).blk t).view.emb (ix3 z r z'))
  rw [hemb]
  show _ = xtSum (arrX V c) (arrT V c) (⟨t.val / 16, by omega⟩ : Fin 2) r
  rw [← xt_range (arrX V c) (arrT V c) (⟨t.val / 16, by omega⟩ : Fin 2) r,
    outsAt_congr V c t.val (16 * (t.val / 16) + 15) t.isLt (lt_of_lt_of_eq (by omega) (show cfg0.N = 32 from N_0).symm) (by omega)]
  exact xt_acc V c (t.val / 16) z r z' 15 _ (by norm_num)

theorem xt_mem_blk (t : Fin cfg0.N) (q : S2x64x1.Idx) :
    q ∈ ((cfg0.win 3).blk t).view.set ↔ ∀ a : Fin 3, win0_3.index t a * S1x64x1.size a ≤ (q a).val ∧ (q a).val < win0_3.index t a * S1x64x1.size a + S1x64x1.size a := by
  show q ∈ ((View.whole main_v2_1).slice (win0_3.rect t)).set ↔ _
  rw [View.set_slice_whole, Rect.mem_set_unit]
  exact Iff.rfl

theorem xt_cover (q : S2x64x1.Idx) : ∃ t : Fin cfg0.N, (cfg0.win 3).flush t = true ∧ q ∈ ((cfg0.win 3).blk t).view.set := by
  have h0 : (q 0).val < 2 := (q 0).isLt
  have h1 : (q 1).val < 64 := (q 1).isLt
  have h2 : (q 2).val < 1 := (q 2).isLt
  refine ⟨⟨16 * (q 0).val + 15, lt_of_lt_of_eq (by omega) (show cfg0.N = 32 from N_0).symm⟩, (flush0_3 _).mpr (by dsimp only; omega), ?_⟩
  rw [xt_mem_blk]
  obtain ⟨e0, e1, e2⟩ := idxXT ⟨16 * (q 0).val + 15, lt_of_lt_of_eq (by omega) (show cfg0.N = 32 from N_0).symm⟩
  dsimp only at e0
  intro a
  match a with
  | ⟨0, _⟩ => show win0_3.index _ (0 : Fin 3) * 1 ≤ (q 0).val ∧ (q 0).val < win0_3.index _ (0 : Fin 3) * 1 + 1; omega
  | ⟨1, _⟩ => show win0_3.index _ (1 : Fin 3) * 64 ≤ (q 1).val ∧ (q 1).val < win0_3.index _ (1 : Fin 3) * 64 + 64; omega
  | ⟨2, _⟩ => show win0_3.index _ (2 : Fin 3) * 1 ≤ (q 2).val ∧ (q 2).val < win0_3.index _ (2 : Fin 3) * 1 + 1; omega

/-- THE ROW-TIMES-TARGET OUTPUT after the region. -/
theorem xt_final (c : Dev nD) : (dat0 V c).arrAt 3 cfg0.N = xtArr (arrX V c) (arrT V c) :=
  (dat0 V c).arrAt_eq_of_cover 3 (xtArr (arrX V c) (arrT V c)) (xt_flushed V c) xt_cover

theorem arr3 (c : Dev nD) (p : Fin 2) (i : Fin 64) :
    ((dat0 (F := Ideal) V c).arrAt 3 cfg0.N (ix3 p i (0 : Fin 1)) : EReal)
      = (∑ k : Fin 16, ∑ y : Fin 16384, arrX V c (ix2 i (Spec.col p k y)) * arrT V c (ix2 (0 : Fin 1) (Spec.col p k y)) : EReal) :=
  congrFun (xt_final V c) (ix3 p i (0 : Fin 1))

/-! ## The target's squared norm (output window 4) -/

/-- At the first tile of a half the accumulator is reset and holds that tile's sum; -/
theorem tt_reset (c : Dev nD) (t : Fin cfg0.N) (h0 : t.val % 16 = 0) (z z' z'' : Fin 1) :
    (outsAt0 V c t.val t.isLt).2.2 (ix3 z z' z'') = tileTT (arrT V c) t.val := by
  rw [outsAt0_A V c t h0]
  dsimp only
  refine (congrFun (R0.out0_A_4_eq (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (blkX V c t) (blkT V c t)) (ix3 z z' z'')).trans ?_
  refine (R0Payload.pay91_apply (blkT V c t) (k0_pay4 (F := Ideal)) z z' z'').trans ?_
  rw [R0Payload.pay4_apply z z' z'', zero_add]
  exact sumTT V c t

/-- at every later tile it adds that tile's sum to what the tile before left. -/
theorem tt_step (c : Dev nD) (t : Fin cfg0.N) (h0 : ¬t.val % 16 = 0) (z z' z'' : Fin 1) :
    (outsAt0 V c t.val t.isLt).2.2 (ix3 z z' z'')
      = (outsAt0 V c (t.val - 1) (Nat.lt_of_le_of_lt (Nat.sub_le _ _) t.isLt)).2.2 (ix3 z z' z'') + tileTT (arrT V c) t.val := by
  rw [outsAt0_B V c t h0]
  dsimp only
  refine (congrFun (R0.out0_B_4_eq (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (blkX V c t) (blkT V c t)
    (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix3 z z' z'')).trans ?_
  refine (R0Payload.pay91_apply (blkT V c t) _ z z' z'').trans ?_
  exact congrArg _ (sumTT V c t)

/-- So after tile `k` of half `p` it holds the sums over tiles `0 … k` of that half. -/
theorem tt_acc (c : Dev nD) (p : ℕ) (z z' z'' : Fin 1) :
    ∀ (k : ℕ) (h : 16 * p + k < cfg0.N), k < 16 →
      (outsAt0 V c (16 * p + k) h).2.2 (ix3 z z' z'') = ∑ s ∈ Finset.range (k + 1), tileTT (arrT V c) (16 * p + s)
  | 0, h, _ => by
    rw [Finset.sum_range_one]
    exact tt_reset V c ⟨16 * p + 0, h⟩ (by dsimp only; omega) z z' z''
  | k + 1, h, hk => by
    rw [Finset.sum_range_succ, ← tt_acc c p z z' z'' k (Nat.lt_of_succ_lt h) (Nat.lt_of_succ_lt hk)]
    exact tt_step V c ⟨16 * p + (k + 1), h⟩ (by dsimp only; omega) z z' z''

def ttSum (B : S1x524288.Idx → EReal) (p : Fin 2) : EReal :=
  ∑ k : Fin 16, ∑ y : Fin 16384, B (ix2 (0 : Fin 1) (Spec.col p k y)) * B (ix2 (0 : Fin 1) (Spec.col p k y))
def ttArr (B : S1x524288.Idx → EReal) : S2x1x1.Idx → EReal := fun q => ttSum B (q 0)

theorem idxTT : ∀ t : Fin cfg0.N, win0_4.index t (0 : Fin 3) = t.val / 16 ∧ win0_4.index t (1 : Fin 3) = 0 ∧ win0_4.index t (2 : Fin 3) = 0 :=
  (by decide +kernel : ∀ t : Fin grid0.N, _)

theorem tt_range (B : S1x524288.Idx → EReal) (p : Fin 2) :
    (∑ s ∈ Finset.range (15 + 1), tileTT B (16 * p.val + s)) = ttSum B p := by
  rw [Finset.sum_range]
  refine Finset.sum_congr rfl fun k _ => ?_
  unfold tileTT
  refine Finset.sum_congr rfl fun y _ => ?_
  rw [colN_eq p k y]

/-- WHAT THE LAST TILE OF A HALF WRITES BACK is that half's block of `ttArr`. -/
theorem tt_flushed (c : Dev nD) (t : Fin cfg0.N) (hf : (cfg0.win 4).flush t = true) :
    (dat0 V c).flushed 4 t = ((cfg0.win 4).blk t).view.read (Elt Ideal) (ttArr (arrT V c)) := by
  have hN : t.val < 32 := lt_of_lt_of_eq t.isLt (show cfg0.N = 32 from N_0)
  have h15 : t.val % 16 = 15 := (flush0_4 t).mp hf
  obtain ⟨e0, e1, e2⟩ := idxTT t
  show (cfg0.win 4).cut (grid0.coords t) ((dat0 V c).after 4 t) = _
  rw [after0_4]
  funext q
  obtain ⟨z, z', z'', rfl⟩ : ∃ (z z' z'' : Fin 1), q = ix3 z z' z'' := ⟨q 0, q 1, q 2, eq_ix3 q⟩
  have hz : z.val = 0 := by have := z.isLt; omega
  have hemb : ((cfg0.win 4).blk t).view.emb (ix3 z z' z'') = ix3 (⟨t.val / 16, by omega⟩ : Fin 2) z' z'' := by
    funext a; apply Fin.ext
    match a with
    | ⟨0, _⟩ => show win0_4.index t (0 : Fin 3) * 1 + 1 * z.val = t.val / 16; omega
    | ⟨1, _⟩ => show win0_4.index t (1 : Fin 3) * 1 + 1 * z'.val = z'.val; omega
    | ⟨2, _⟩ => show win0_4.index t (2 : Fin 3) * 1 + 1 * z''.val = z''.val; omega
  show (outsAt0 V c t.val t.isLt).2.2 (ix3 z z' z'') = ttArr (arrT V c) (((cfg0.win 4).blk t).view.emb (ix3 z z' z''))
  rw [hemb]
  show _ = ttSum (arrT V c) (⟨t.val / 16, by omega⟩ : Fin 2)
  rw [← tt_range (arrT V c) (⟨t.val / 16, by omega⟩ : Fin 2),
    outsAt_congr V c t.val (16 * (t.val / 16) + 15) t.isLt (lt_of_lt_of_eq (by omega) (show cfg0.N = 32 from N_0).symm) (by omega)]
  exact tt_acc V c (t.val / 16) z z' z'' 15 _ (by norm_num)

theorem tt_mem_blk (t : Fin cfg0.N) (q : S2x1x1.Idx) :
    q ∈ ((cfg0.win 4).blk t).view.set ↔ ∀ a : Fin 3, win0_4.index t a * S1x1x1.size a ≤ (q a).val ∧ (q a).val < win0_4.index t a * S1x1x1.size a + S1x1x1.size a := by
  show q ∈ ((View.whole main_v2_2).slice (win0_4.rect t)).set ↔ _
  rw [View.set_slice_whole, Rect.mem_set_unit]
  exact Iff.rfl

theorem tt_cover (q : S2x1x1.Idx) : ∃ t : Fin cfg0.N, (cfg0.win 4).flush t = true ∧ q ∈ ((cfg0.win 4).blk t).view.set := by
  have h0 : (q 0).val < 2 := (q 0).isLt
  have h1 : (q 1).val < 1 := (q 1).isLt
  have h2 : (q 2).val < 1 := (q 2).isLt
  refine ⟨⟨16 * (q 0).val + 15, lt_of_lt_of_eq (by omega) (show cfg0.N = 32 from N_0).symm⟩, (flush0_4 _).mpr (by dsimp only; omega), ?_⟩
  rw [tt_mem_blk]
  obtain ⟨e0, e1, e2⟩ := idxTT ⟨16 * (q 0).val + 15, lt_of_lt_of_eq (by omega) (show cfg0.N = 32 from N_0).symm⟩
  dsimp only at e0
  intro a
  match a with
  | ⟨0, _⟩ => show win0_4.index _ (0 : Fin 3) * 1 ≤ (q 0).val ∧ (q 0).val < win0_4.index _ (0 : Fin 3) * 1 + 1; omega
  | ⟨1, _⟩ => show win0_4.index _ (1 : Fin 3) * 1 ≤ (q 1).val ∧ (q 1).val < win0_4.index _ (1 : Fin 3) * 1 + 1; omega
  | ⟨2, _⟩ => show win0_4.index _ (2 : Fin 3) * 1 ≤ (q 2).val ∧ (q 2).val < win0_4.index _ (2 : Fin 3) * 1 + 1; omega

/-- THE TARGET-NORM OUTPUT after the region. -/
theorem tt_final (c : Dev nD) : (dat0 V c).arrAt 4 cfg0.N = ttArr (arrT V c) :=
  (dat0 V c).arrAt_eq_of_cover 4 (ttArr (arrT V c)) (tt_flushed V c) tt_cover

theorem arr4 (c : Dev nD) (p : Fin 2) :
    ((dat0 (F := Ideal) V c).arrAt 4 cfg0.N (ix3 p (0 : Fin 1) (0 : Fin 1)) : EReal)
      = (∑ k : Fin 16, ∑ y : Fin 16384, arrT V c (ix2 (0 : Fin 1) (Spec.col p k y)) * arrT V c (ix2 (0 : Fin 1) (Spec.col p k y)) : EReal) :=
  congrFun (tt_final V c) (ix3 p (0 : Fin 1) (0 : Fin 1))

end Cert.KernelIdeal.R0Value

end
-- ==== Proof.Algebra.lean ====
/-
  The algebra that joins the two sides, over the extended reals.

  Three facts about the quantities of Proof/Spec.lean:
    * the two halves, their sixteen tiles and the 16384 lanes enumerate the 524288 columns once each, so a sum
      over the columns is the iterated sum over halves, tiles and lanes (sum_col);
    * hence the Gram matrix, the inner products with the target and the target's squared norm are each the sum
      of their two halves (gram_halves, dotT_halves, normT_halves);
    * on real data the expanded squared distance max (‖x‖² - 2⟨x,t⟩ + ‖t‖²) 0 is the direct one ∑ (x - t)²:
      in the reals the two agree by the binomial law, and a sum of squares is not negative, so the clamp at
      zero does nothing (distExpanded_eq_distDirect).
-/
import proofs.«137065_j56899726737831_1_alg».proof.Proof.Spec
import Mathlib.Data.EReal.Basic
import Mathlib.Data.EReal.Operations
import Mathlib.Algebra.BigOperators.Fin
import Mathlib.Data.Fintype.BigOperators

noncomputable section

open scoped BigOperators

namespace Cert.Spec

open Idealize.ShloMosaic

/-! ### The columns, enumerated by half, tile and lane -/

/-- Half, tile and lane name each column once: column c is lane c mod 16384 of tile (c / 16384) mod 16 of
    half c / 262144, and col is the inverse map. -/
def colEquiv : Fin 2 × Fin 16 × Fin 16384 ≃ Fin 524288 where
  toFun q := col q.1 q.2.1 q.2.2
  invFun c :=
    (⟨c.val / 262144, by have := c.isLt; omega⟩,
     ⟨c.val / 16384 % 16, Nat.mod_lt _ (by norm_num)⟩,
     ⟨c.val % 16384, Nat.mod_lt _ (by norm_num)⟩)
  left_inv := by
    rintro ⟨p, k, y⟩
    have hp := p.isLt
    have hk := k.isLt
    have hy := y.isLt
    refine Prod.ext (Fin.ext ?_) (Prod.ext (Fin.ext ?_) (Fin.ext ?_))
    · show (16384 * (16 * p.val + k.val) + y.val) / 262144 = p.val
      omega
    · show (16384 * (16 * p.val + k.val) + y.val) / 16384 % 16 = k.val
      omega
    · show (16384 * (16 * p.val + k.val) + y.val) % 16384 = y.val
      omega
  right_inv := by
    intro c
    have hc := c.isLt
    refine Fin.ext ?_
    show 16384 * (16 * (c.val / 262144) + c.val / 16384 % 16) + c.val % 16384 = c.val
    omega

/-- A sum over the columns is the sum over the halves of the sums over the tiles of the sums over the lanes. -/
theorem sum_col (f : Fin 524288 → EReal) :
    ∑ k : Fin 524288, f k = ∑ p : Fin 2, ∑ k' : Fin 16, ∑ y : Fin 16384, f (Spec.col p k' y) := by
  rw [← Equiv.sum_comp colEquiv f, Fintype.sum_prod_type]
  refine Finset.sum_congr rfl fun p _ => ?_
  rw [Fintype.sum_prod_type]
  rfl

/-! ### The three column sums, split into their halves -/

/-- The Gram matrix is the sum of the two halves' Gram matrices. -/
theorem gram_halves (X : Fin 64 → Fin 524288 → EReal) (i j : Fin 64) :
    Spec.gram X i j
      = (∑ k' : Fin 16, ∑ y : Fin 16384, X i (col 0 k' y) * X j (col 0 k' y))
        + (∑ k' : Fin 16, ∑ y : Fin 16384, X i (col 1 k' y) * X j (col 1 k' y)) := by
  unfold gram
  rw [sum_col (fun k => X i k * X j k), Fin.sum_univ_two]

/-- Each row's inner product with the target is the sum of the two halves' inner products. -/
theorem dotT_halves (X : Fin 64 → Fin 524288 → EReal) (t : Fin 524288 → EReal) (i : Fin 64) :
    Spec.dotT X t i
      = (∑ k' : Fin 16, ∑ y : Fin 16384, X i (col 0 k' y) * t (col 0 k' y))
        + (∑ k' : Fin 16, ∑ y : Fin 16384, X i (col 1 k' y) * t (col 1 k' y)) := by
  unfold dotT
  rw [sum_col (fun k => X i k * t k), Fin.sum_univ_two]

/-- The target's squared norm is the sum of the two halves' squared norms. -/
theorem normT_halves (t : Fin 524288 → EReal) :
    Spec.normT t
      = (∑ k' : Fin 16, ∑ y : Fin 16384, t (col 0 k' y) * t (col 0 k' y))
        + (∑ k' : Fin 16, ∑ y : Fin 16384, t (col 1 k' y) * t (col 1 k' y)) := by
  unfold normT
  rw [sum_col (fun k => t k * t k), Fin.sum_univ_two]

/-! ### The expanded and the direct squared distance -/

/-- The word 0x40000000 denotes the real two. -/
theorem ofBits_two : Ideal.ofBits .f32 0x40000000#32 = ((2 : ℝ) : EReal) := by
  simp [Ideal.ofBits, Ideal.ieee, -EReal.coe_mul]; norm_num

/-- The embedding of the reals commutes with finite sums. -/
theorem coe_sum {ι : Type*} (s : Finset ι) (g : ι → ℝ) :
    ((∑ k ∈ s, g k : ℝ) : EReal) = ∑ k ∈ s, ((g k : ℝ) : EReal) := by
  classical
  induction s using Finset.induction_on with
  | empty => simp
  | insert a s ha ih => rw [Finset.sum_insert ha, Finset.sum_insert ha, EReal.coe_add, ih]

/-- The binomial law under a finite sum, in the reals: ∑ x² - 2 ∑ x t + ∑ t² = ∑ (x - t)². -/
theorem real_expand {ι : Type*} (s : Finset ι) (x t : ι → ℝ) :
    (∑ k ∈ s, x k * x k - 2 * ∑ k ∈ s, x k * t k) + ∑ k ∈ s, t k * t k
      = ∑ k ∈ s, (x k - t k) * (x k - t k) := by
  rw [Finset.mul_sum, ← Finset.sum_sub_distrib, ← Finset.sum_add_distrib]
  refine Finset.sum_congr rfl fun k _ => ?_
  ring

/-- On real data the expanded squared distance of a row to the target is the direct one. -/
theorem distExpanded_eq_distDirect (X : Fin 64 → Fin 524288 → EReal) (t : Fin 524288 → EReal)
    (hX : ∀ i k, ∃ r : ℝ, X i k = (r : EReal)) (ht : ∀ k, ∃ r : ℝ, t k = (r : EReal)) (i : Fin 64) :
    Spec.distExpanded X t i = Spec.distDirect X t i := by
  choose x hx using hX
  choose s hs using ht
  unfold distExpanded distDirect gram dotT normT
  rw [ofBits_two, Ideal.ofBits_zero_f32]
  simp only [hx, hs]
  simp only [← EReal.coe_mul, ← EReal.coe_sub, ← coe_sum, ← EReal.coe_add]
  rw [real_expand]
  refine max_eq_left (EReal.coe_nonneg.mpr ?_)
  exact Finset.sum_nonneg fun k _ => mul_self_nonneg _

end Cert.Spec

end
-- ==== Proof.KernelValue.lean ====
/-
  The kernel's result as the score of the shared mathematics: the boundary contents read back — region 1's one
  output element, computed from region 0's three arrays, each of which holds, per half of the columns, the sixteen
  tiles' accumulated sums of products of the two re-read arguments — and the two halves added are the full sums.
-/
import proofs.«137065_j56899726737831_1_alg».proof.Proof.KernelGlue
import proofs.«137065_j56899726737831_1_alg».proof.Proof.R1Arr
import proofs.«137065_j56899726737831_1_alg».proof.Proof.R1Payload
import proofs.«137065_j56899726737831_1_alg».proof.Proof.R0Value
import proofs.«137065_j56899726737831_1_alg».proof.Proof.Algebra

set_option maxRecDepth 16384

noncomputable section

namespace Cert.KernelIdeal.Value

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-- The samples' rows and the target's row, read off the launch memory. -/
abbrev X (c : Dev nD) : Fin 64 → Fin 524288 → EReal :=
  Spec.rowsOf (m ((c : Thread nD τ).loc main_arg0) : Vec Ideal S64x4096x128 .f32)
abbrev T (c : Dev nD) : Fin 524288 → EReal :=
  Spec.flatOf (m ((c : Thread nD τ).loc main_arg1) : Vec Ideal S4096x128 .f32)

/-- The result scalar is the one element of region 1's output block, computed from region 0's three arrays. -/
theorem result_eq (c : Dev nD) :
    (W4 m ρ c (Proc.devRef .tc main_v4) : Vec Ideal S_ .f32)
      = fun _ => out1_3 (F := Ideal) (V2 m ρ c main_v2_0) (V2 m ρ c main_v2_1) (V2 m ρ c main_v2_2) (ix2 (0 : Fin 1) (0 : Fin 1)) := by
  rw [Glue.W4_v4, Glue.W3_v3, R1Arr.arr1_3]
  funext j
  refine shapeCast_apply _ _ _ _ ?_
  show (S1x1.rowMajor (ix2 (0 : Fin 1) (0 : Fin 1))).val = (S_.rowMajor j).val
  have h1 := (S_.rowMajor j).isLt
  have h2 := (S1x1.rowMajor (ix2 (0 : Fin 1) (0 : Fin 1))).isLt
  have e1 : S_.numel = 1 := by decide
  have e2 : S1x1.numel = 1 := by decide
  omega

/-- Half `p` of region 0's first output at `(i, j)`: the sixteen tiles' sums of products of rows `i` and `j`. -/
theorem half_gram (c : Dev nD) (p : Fin 2) (i j : Fin 64) :
    ((dat0 (F := Ideal) (V1 m ρ) c).arrAt 2 cfg0.N (ix3 p i j) : EReal)
      = (∑ k : Fin 16, ∑ y : Fin 16384, X m c i (Spec.col p k y) * X m c j (Spec.col p k y) : EReal) :=
  by
  rw [R0Value.arr2]
  show (_ : EReal) = _
  refine Finset.sum_congr rfl fun k _ => Finset.sum_congr rfl fun y _ => ?_
  exact congrArg₂ (fun a b : EReal => a * b) (Glue.rows_apply m ρ c i (Spec.col p k y)) (Glue.rows_apply m ρ c j (Spec.col p k y))

/-- Half `p` of its second output at row `i`: the tiles' sums of products of row `i` with the target. -/
theorem half_dotT (c : Dev nD) (p : Fin 2) (i : Fin 64) :
    ((dat0 (F := Ideal) (V1 m ρ) c).arrAt 3 cfg0.N (ix3 p i (0 : Fin 1)) : EReal)
      = (∑ k : Fin 16, ∑ y : Fin 16384, X m c i (Spec.col p k y) * T m c (Spec.col p k y) : EReal) :=
  by
  rw [R0Value.arr3]
  show (_ : EReal) = _
  refine Finset.sum_congr rfl fun k _ => Finset.sum_congr rfl fun y _ => ?_
  exact congrArg₂ (fun a b : EReal => a * b) (Glue.rows_apply m ρ c i (Spec.col p k y)) (Glue.flat_apply m ρ c 0 (Spec.col p k y))

/-- Half `p` of its third output: the tiles' sums of the target's squares. -/
theorem half_normT (c : Dev nD) (p : Fin 2) :
    ((dat0 (F := Ideal) (V1 m ρ) c).arrAt 4 cfg0.N (ix3 p (0 : Fin 1) (0 : Fin 1)) : EReal)
      = (∑ k : Fin 16, ∑ y : Fin 16384, T m c (Spec.col p k y) * T m c (Spec.col p k y) : EReal) :=
  by
  rw [R0Value.arr4]
  show (_ : EReal) = _
  refine Finset.sum_congr rfl fun k _ => Finset.sum_congr rfl fun y _ => ?_
  exact congrArg₂ (fun a b : EReal => a * b) (Glue.flat_apply m ρ c 0 (Spec.col p k y)) (Glue.flat_apply m ρ c 0 (Spec.col p k y))

/-- The two halves of region 0's first output add up to the rows' Gram matrix. -/
theorem gram_eq (c : Dev nD) : R1Payload.G (V2 m ρ c main_v2_0) = Spec.gram (X m c) := by
  funext i j
  unfold R1Payload.G
  rw [Glue.V2_v2_0, half_gram, half_gram, Spec.gram_halves]

/-- The expanded squared distances: the Gram diagonal, the two halves of the rows' products with the target and of
    the target's square added. -/
theorem dist_eq (c : Dev nD) :
    R1Payload.Dk (V2 m ρ c main_v2_0) (V2 m ρ c main_v2_1) (V2 m ρ c main_v2_2) = Spec.distExpanded (X m c) (T m c) := by
  funext i
  unfold R1Payload.Dk Spec.distExpanded
  rw [gram_eq, Glue.V2_v2_1, Glue.V2_v2_2, half_dotT, half_dotT, half_normT, half_normT,
    Spec.dotT_halves, Spec.normT_halves]

/-- The kernel's result is the score of the Gram matrix and the expanded distances. -/
theorem value (c : Dev nD) :
    (W4 m ρ c (Proc.devRef .tc main_v4) : Vec Ideal S_ .f32)
      = fun _ => Spec.score (Spec.gram (X m c)) (Spec.distExpanded (X m c) (T m c)) := by
  rw [result_eq, R1Payload.out1_3_eq, gram_eq, dist_eq]

end Cert.KernelIdeal.Value

end
-- ==== Proof.RefTerm.lean ====
/-
  The reference's result as ONE term of its two float arguments, stage by stage: what each group of host
  operations of the reference's @main computes from the values before it. (The third argument, the time points,
  is read by no operation.) Stated for any float instance; the value proof reads it at the ideal one.
    rows / flat     the samples as 64 rows of 524288, the target as one row (row-major re-readings)
    sqNorm          each row's sum of squares
    gramM           the rows' Gram matrix: the rows against their own transpose
    sqDist          sqNorm i + sqNorm j - 2 gram i j, cut below at zero
    kernM           exp of minus that
    total, traceOf  its sum over all pairs and over the diagonal (a mask "row index = column index")
    crossT          a quarter of their difference, over 4032
    dist            each row's sum of squared differences to the target
    targetT         the mean of exp of minus that
    clip            cut to [-10, 10]
-/
import proofs.«137065_j56899726737831_1_alg».proof.ReferenceIdeal

noncomputable section

namespace Cert.ReferenceIdeal.RefTerm

open Idealize.ShloMosaic Cert.ReferenceIdeal Cert.ReferenceIdeal.Facts₀ Cert.ReferenceIdeal.Facts

variable {F : FTy → Type} [FloatOps F] [Cert.ReferenceIdeal.Facts]

/-- The samples as 64 rows. -/
def rows (a0 : FVec F S64x4096x128 .f32) : FVec F S64x524288 .f32 :=
  shapeCast S64x524288 a0 shapeCasts_S64x4096x128_S64x524288
/-- The target as one row. -/
def flat (a1 : FVec F S4096x128 .f32) : FVec F S524288 .f32 :=
  shapeCast S524288 a1 shapeCasts_S4096x128_S524288
/-- The scalar zero every host sum starts from. -/
def zero : FVec F S_ .f32 := constant S_ .f32 0x00000000#32
/-- Each row's sum of squares. -/
def sqNorm (x : FVec F S64x524288 .f32) : FVec F S64 .f32 :=
  Host.reduceAdd (mulf x x) (zero (F := F)) reducesTo_S64x524288_S64_d1 h_S_
/-- The rows' Gram matrix. -/
def gramM (x : FVec F S64x524288 .f32) : FVec F S64x64 .f32 :=
  Host.dotGeneral dot_S64x524288_S524288x64_S64x64_1_0_0_1_n_n none x
    (transpose S524288x64 [1, 0] x transposes_S64x524288_S524288x64_1_0)
/-- The pairwise squared distances from the norms and the Gram matrix, cut below at zero. -/
def sqDist (s : FVec F S64 .f32) (g : FVec F S64x64 .f32) : FVec F S64x64 .f32 :=
  maximumf
    (subf
      (addf (broadcastInDim S64x64 ![0, 1] bcast_S64x1_S64x64_0_1 (broadcastInDim S64x1 ![0] bcast_S64_S64x1_0 s))
            (broadcastInDim S64x64 ![0, 1] bcast_S1x64_S64x64_0_1 (broadcastInDim S1x64 ![1] bcast_S64_S1x64_1 s)))
      (mulf (broadcastInDim S64x64 ![] bcast_S_S64x64 (constant S_ .f32 0x40000000#32 : FVec F S_ .f32)) g))
    (broadcastInDim S64x64 ![] bcast_S_S64x64 (constant S_ .f32 0x00000000#32 : FVec F S_ .f32))
/-- The radial kernel of the pairwise distances. -/
def kernM (d : FVec F S64x64 .f32) : FVec F S64x64 .f32 :=
  Host.exp (mulf (broadcastInDim S64x64 ![] bcast_S_S64x64 (constant S_ .f32 0xBF800000#32 : FVec F S_ .f32)) d)
/-- The kernel's sum over all pairs. -/
def total (k : FVec F S64x64 .f32) : FVec F S_ .f32 :=
  Host.reduceAdd k (constant S_ .f32 0x00000000#32 : FVec F S_ .f32) reducesTo_S64x64_S_d0_1 h_S_
/-- "Row index equals column index". -/
def diagMask : IVec S64x64 1 :=
  cmpi .eq (addi (iotaInDim S64x64 32 0) (broadcastInDim S64x64 ![] bcast_S_S64x64 (constantI S_ 32 0#32)))
    (iotaInDim S64x64 32 1)
/-- The kernel's sum over the diagonal. -/
def traceOf (k : FVec F S64x64 .f32) : FVec F S_ .f32 :=
  Host.reduceAdd
    (select diagMask k (broadcastInDim S64x64 ![] bcast_S_S64x64 (constant S_ .f32 0x00000000#32 : FVec F S_ .f32)))
    (constant S_ .f32 0x00000000#32 : FVec F S_ .f32) reducesTo_S64x64_S_d0_1 h_S_
/-- A quarter of the sum off the diagonal, over 4032. -/
def crossT (k : FVec F S64x64 .f32) : FVec F S_ .f32 :=
  Host.divf (mulf (constant S_ .f32 0x3E800000#32 : FVec F S_ .f32) (subf (total k) (traceOf k)))
    (constant S_ .f32 0x457C0000#32 : FVec F S_ .f32)
/-- Each row's sum of squared differences to the target. -/
def dist (x : FVec F S64x524288 .f32) (t : FVec F S524288 .f32) : FVec F S64 .f32 :=
  Host.reduceAdd
    (mulf
      (subf x (broadcastInDim S64x524288 ![0, 1] bcast_S1x524288_S64x524288_0_1
        (broadcastInDim S1x524288 ![1] bcast_S524288_S1x524288_1 t)))
      (subf x (broadcastInDim S64x524288 ![0, 1] bcast_S1x524288_S64x524288_0_1
        (broadcastInDim S1x524288 ![1] bcast_S524288_S1x524288_1 t))))
    (constant S_ .f32 0x00000000#32 : FVec F S_ .f32) reducesTo_S64x524288_S64_d1 h_S_
/-- The mean over the rows of exp of minus the distance. -/
def targetT (d : FVec F S64 .f32) : FVec F S_ .f32 :=
  Host.divf
    (Host.reduceAdd
      (Host.exp (mulf (broadcastInDim S64 ![] bcast_S_S64 (constant S_ .f32 0xBF800000#32 : FVec F S_ .f32)) d))
      (constant S_ .f32 0x00000000#32 : FVec F S_ .f32) reducesTo_S64_S_d0 h_S_)
    (constant S_ .f32 0x42800000#32 : FVec F S_ .f32)
/-- Cut to [-10, 10]: the larger of the lower bound and the value, then the smaller of the upper bound and that. -/
def clip (s : FVec F S_ .f32) : FVec F S_ .f32 :=
  minimumf (id (constant S_ .f32 0x41200000#32 : FVec F S_ .f32))
    (maximumf (id (constant S_ .f32 0xC1200000#32 : FVec F S_ .f32)) s)
/-- The reference's result from its two float arguments. -/
def out (a0 : FVec F S64x4096x128 .f32) (a1 : FVec F S4096x128 .f32) : FVec F S_ .f32 :=
  clip (subf (crossT (kernM (sqDist (sqNorm (rows a0)) (gramM (rows a0))))) (targetT (dist (rows a0) (flat a1))))

end Cert.ReferenceIdeal.RefTerm

end
-- ==== Proof.RefRun.lean ====
/-
  The reference's run. Its @main is a straight line of sixty-two host operations once its three calls are
  read as their callees' bodies at the call sites: twenty-five of @main's own up to the kernel matrix and its
  sum over all pairs; the trace function's eleven (the two index grids, the zero added to the row grid, the
  comparison "row index = column index", the zero matrix, the selection — the one operation of the function
  it calls in turn — and the sum of what is selected); @main's twenty-two from the difference of the two sums
  to the difference of the two terms and the two bounds; and the clamp function's four (each bound re-read at
  its own type, the larger of the lower bound and the value, the smaller of the upper bound and that).
  Every weakly fair execution of such a line terminates with each buffer at the fold of the operations'
  results over the launch contents; at the result buffer that fold is the staged term of the two float
  arguments, and no operation writes an argument buffer.
-/
import proofs.«137065_j56899726737831_1_alg».proof.ReferenceIdeal
import proofs.«137065_j56899726737831_1_alg».proof.Proof.Gen.ReferenceIdeal
import proofs.«137065_j56899726737831_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- @main's sixty-two operations in order, each call replaced by its callee's operations over that call's
    own buffers. -/
abbrev ops : List (HloOp τ sig (Elt F)) :=
  [ -- the samples as 64 rows, the target as one row
    reshape main_arg0 main_v0 rfl shapeCasts_S64x4096x128_S64x524288,
    reshape main_arg1 main_v1 rfl shapeCasts_S4096x128_S524288,
    -- each row's sum of squares
    binary main_v0 main_v0 main_v2 (mulf : (⟨S64x524288, .f32⟩ : BufTy).Contents (Elt F) → (⟨S64x524288, .f32⟩ : BufTy).Contents (Elt F) → (⟨S64x524288, .f32⟩ : BufTy).Contents (Elt F)),
    nullary main_cst (constant S_ .f32 0x00000000#32),
    binary main_v2 main_cst main_v3 ((fun x v => Host.reduceAdd x v reducesTo_S64x524288_S64_d1 h_S_) : (⟨S64x524288, .f32⟩ : BufTy).Contents (Elt F) → (⟨S_, .f32⟩ : BufTy).Contents (Elt F) → (⟨S64, .f32⟩ : BufTy).Contents (Elt F)),
    -- the Gram matrix: the rows against their transpose
    unary main_v0 main_v4 ((transpose S524288x64 [1, 0] · transposes_S64x524288_S524288x64_1_0) : (⟨S64x524288, .f32⟩ : BufTy).Contents (Elt F) → (⟨S524288x64, .f32⟩ : BufTy).Contents (Elt F)),
    binary main_v0 main_v4 main_v5 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    -- the pairwise squared distances, cut below at zero
    unary main_v3 main_v6 (broadcastInDim S64x1 ![0] bcast_S64_S64x1_0 : (⟨S64, .f32⟩ : BufTy).Contents (Elt F) → (⟨S64x1, .f32⟩ : BufTy).Contents (Elt F)),
    unary main_v3 main_v7 (broadcastInDim S1x64 ![1] bcast_S64_S1x64_1 : (⟨S64, .f32⟩ : BufTy).Contents (Elt F) → (⟨S1x64, .f32⟩ : BufTy).Contents (Elt F)),
    unary main_v6 main_v8 (broadcastInDim S64x64 ![0, 1] bcast_S64x1_S64x64_0_1 : (⟨S64x1, .f32⟩ : BufTy).Contents (Elt F) → (⟨S64x64, .f32⟩ : BufTy).Contents (Elt F)),
    unary main_v7 main_v9 (broadcastInDim S64x64 ![0, 1] bcast_S1x64_S64x64_0_1 : (⟨S1x64, .f32⟩ : BufTy).Contents (Elt F) → (⟨S64x64, .f32⟩ : BufTy).Contents (Elt F)),
    binary main_v8 main_v9 main_v10 (addf : (⟨S64x64, .f32⟩ : BufTy).Contents (Elt F) → (⟨S64x64, .f32⟩ : BufTy).Contents (Elt F) → (⟨S64x64, .f32⟩ : BufTy).Contents (Elt F)),
    nullary main_cst_0 (constant S_ .f32 0x40000000#32),
    unary main_cst_0 main_v11 (broadcastInDim S64x64 ![] bcast_S_S64x64 : (⟨S_, .f32⟩ : BufTy).Contents (Elt F) → (⟨S64x64, .f32⟩ : BufTy).Contents (Elt F)),
    binary main_v11 main_v5 main_v12 (mulf : (⟨S64x64, .f32⟩ : BufTy).Contents (Elt F) → (⟨S64x64, .f32⟩ : BufTy).Contents (Elt F) → (⟨S64x64, .f32⟩ : BufTy).Contents (Elt F)),
    binary main_v10 main_v12 main_v13 (subf : (⟨S64x64, .f32⟩ : BufTy).Contents (Elt F) → (⟨S64x64, .f32⟩ : BufTy).Contents (Elt F) → (⟨S64x64, .f32⟩ : BufTy).Contents (Elt F)),
    nullary main_cst_1 (constant S_ .f32 0x00000000#32),
    unary main_cst_1 main_v14 (broadcastInDim S64x64 ![] bcast_S_S64x64 : (⟨S_, .f32⟩ : BufTy).Contents (Elt F) → (⟨S64x64, .f32⟩ : BufTy).Contents (Elt F)),
    binary main_v13 main_v14 main_v15 (maximumf : (⟨S64x64, .f32⟩ : BufTy).Contents (Elt F) → (⟨S64x64, .f32⟩ : BufTy).Contents (Elt F) → (⟨S64x64, .f32⟩ : BufTy).Contents (Elt F)),
    -- the radial kernel of the distances, and its sum over all pairs
    nullary main_cst_2 (constant S_ .f32 0xBF800000#32),
    unary main_cst_2 main_v16 (broadcastInDim S64x64 ![] bcast_S_S64x64 : (⟨S_, .f32⟩ : BufTy).Contents (Elt F) → (⟨S64x64, .f32⟩ : BufTy).Contents (Elt F)),
    binary main_v16 main_v15 main_v17 (mulf : (⟨S64x64, .f32⟩ : BufTy).Contents (Elt F) → (⟨S64x64, .f32⟩ : BufTy).Contents (Elt F) → (⟨S64x64, .f32⟩ : BufTy).Contents (Elt F)),
    unary main_v17 main_v18 (Host.exp : (⟨S64x64, .f32⟩ : BufTy).Contents (Elt F) → (⟨S64x64, .f32⟩ : BufTy).Contents (Elt F)),
    nullary main_cst_3 (constant S_ .f32 0x00000000#32),
    binary main_v18 main_cst_3 main_v19 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    -- the trace function on the kernel matrix: the diagonal's mask, the selection, its sum
    TRef.nullary main_call0.v0 (iotaInDim S64x64 32 0),
    TRef.nullary main_call0.v1 (iotaInDim S64x64 32 1),
    TRef.nullary main_call0.c (constantI S_ 32 0#32),
    TRef.unary main_call0.c main_call0.v2 (broadcastInDim S64x64 ![] bcast_S_S64x64),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S64x64 ![] bcast_S_S64x64),
    TRef.ternary main_call0.v4 (.of main_v18 : TRef sig ⟨S64x64, .f32⟩) main_call0.v5 main_call0.call0.v0 select,
    TRef.nullary main_call0.cst_0 (constant S_ .f32 0x00000000#32),
    TRef.binary main_call0.call0.v0 main_call0.cst_0 main_call0.v7 (fun x v => Host.reduceAdd x v reducesTo_S64x64_S_d0_1 h_S_),
    -- a quarter of the sum off the diagonal, over 4032
    binary main_v19 main_v20 main_v21 (subf : (⟨S_, .f32⟩ : BufTy).Contents (Elt F) → (⟨S_, .f32⟩ : BufTy).Contents (Elt F) → (⟨S_, .f32⟩ : BufTy).Contents (Elt F)),
    nullary main_cst_4 (constant S_ .f32 0x3E800000#32),
    binary main_cst_4 main_v21 main_v22 (mulf : (⟨S_, .f32⟩ : BufTy).Contents (Elt F) → (⟨S_, .f32⟩ : BufTy).Contents (Elt F) → (⟨S_, .f32⟩ : BufTy).Contents (Elt F)),
    nullary main_cst_5 (constant S_ .f32 0x457C0000#32),
    binary main_v22 main_cst_5 main_v23 (Host.divf : (⟨S_, .f32⟩ : BufTy).Contents (Elt F) → (⟨S_, .f32⟩ : BufTy).Contents (Elt F) → (⟨S_, .f32⟩ : BufTy).Contents (Elt F)),
    -- each row's sum of squared differences to the target
    unary main_v1 main_v24 (broadcastInDim S1x524288 ![1] bcast_S524288_S1x524288_1 : (⟨S524288, .f32⟩ : BufTy).Contents (Elt F) → (⟨S1x524288, .f32⟩ : BufTy).Contents (Elt F)),
    unary main_v24 main_v25 (broadcastInDim S64x524288 ![0, 1] bcast_S1x524288_S64x524288_0_1 : (⟨S1x524288, .f32⟩ : BufTy).Contents (Elt F) → (⟨S64x524288, .f32⟩ : BufTy).Contents (Elt F)),
    binary main_v0 main_v25 main_v26 (subf : (⟨S64x524288, .f32⟩ : BufTy).Contents (Elt F) → (⟨S64x524288, .f32⟩ : BufTy).Contents (Elt F) → (⟨S64x524288, .f32⟩ : BufTy).Contents (Elt F)),
    binary main_v26 main_v26 main_v27 (mulf : (⟨S64x524288, .f32⟩ : BufTy).Contents (Elt F) → (⟨S64x524288, .f32⟩ : BufTy).Contents (Elt F) → (⟨S64x524288, .f32⟩ : BufTy).Contents (Elt F)),
    nullary main_cst_6 (constant S_ .f32 0x00000000#32),
    binary main_v27 main_cst_6 main_v28 ((fun x v => Host.reduceAdd x v reducesTo_S64x524288_S64_d1 h_S_) : (⟨S64x524288, .f32⟩ : BufTy).Contents (Elt F) → (⟨S_, .f32⟩ : BufTy).Contents (Elt F) → (⟨S64, .f32⟩ : BufTy).Contents (Elt F)),
    -- the mean over the rows of exp of minus that
    nullary main_cst_7 (constant S_ .f32 0xBF800000#32),
    unary main_cst_7 main_v29 (broadcastInDim S64 ![] bcast_S_S64 : (⟨S_, .f32⟩ : BufTy).Contents (Elt F) → (⟨S64, .f32⟩ : BufTy).Contents (Elt F)),
    binary main_v29 main_v28 main_v30 (mulf : (⟨S64, .f32⟩ : BufTy).Contents (Elt F) → (⟨S64, .f32⟩ : BufTy).Contents (Elt F) → (⟨S64, .f32⟩ : BufTy).Contents (Elt F)),
    unary main_v30 main_v31 (Host.exp : (⟨S64, .f32⟩ : BufTy).Contents (Elt F) → (⟨S64, .f32⟩ : BufTy).Contents (Elt F)),
    nullary main_cst_8 (constant S_ .f32 0x00000000#32),
    binary main_v31 main_cst_8 main_v32 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_9 (constant S_ .f32 0x42800000#32),
    binary main_v32 main_cst_9 main_v33 (Host.divf : (⟨S_, .f32⟩ : BufTy).Contents (Elt F) → (⟨S_, .f32⟩ : BufTy).Contents (Elt F) → (⟨S_, .f32⟩ : BufTy).Contents (Elt F)),
    -- the difference of the two terms, and the two bounds
    binary main_v23 main_v33 main_v34 (subf : (⟨S_, .f32⟩ : BufTy).Contents (Elt F) → (⟨S_, .f32⟩ : BufTy).Contents (Elt F) → (⟨S_, .f32⟩ : BufTy).Contents (Elt F)),
    nullary main_cst_10 (constant S_ .f32 0xC1200000#32),
    nullary main_cst_11 (constant S_ .f32 0x41200000#32),
    -- the clamp function on the difference and the two bounds
    TRef.unary (.of main_cst_10 : TRef sig ⟨S_, .f32⟩) main_call1.v0 id,
    TRef.binary main_call1.v0 (.of main_v34 : TRef sig ⟨S_, .f32⟩) main_call1.v1 maximumf,
    TRef.unary (.of main_cst_11 : TRef sig ⟨S_, .f32⟩) main_call1.v2 id,
    TRef.binary main_call1.v2 main_call1.v1 main_call1.v3 minimumf ]

-- sixty-two binds re-associated: the rewrite under the chain recurses once per statement
set_option maxRecDepth 2048 in
/-- @main is that straight line: with the three functions' definitions unfolded at their calls, both sides are one
    chain of host steps once sequencing is re-associated. -/
theorem main_eq (c : Dev nD) : main (F := F) c = seq ops := by
  simp only [main, fn_trace.body, fn_where.body, fn_clip.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨reshape_bufs_sub .., reshape_bufs_sub .., binary_bufs_sub .., nullary_bufs_sub .., binary_bufs_sub ..,
    unary_bufs_sub .., binary_bufs_sub .., unary_bufs_sub .., unary_bufs_sub .., unary_bufs_sub ..,
    unary_bufs_sub .., binary_bufs_sub .., nullary_bufs_sub .., unary_bufs_sub .., binary_bufs_sub ..,
    binary_bufs_sub .., nullary_bufs_sub .., unary_bufs_sub .., binary_bufs_sub .., nullary_bufs_sub ..,
    unary_bufs_sub .., binary_bufs_sub .., unary_bufs_sub .., nullary_bufs_sub .., binary_bufs_sub ..,
    nullary_bufs_sub .., nullary_bufs_sub .., nullary_bufs_sub .., unary_bufs_sub .., binary_bufs_sub ..,
    binary_bufs_sub .., nullary_bufs_sub .., unary_bufs_sub .., ternary_bufs_sub .., nullary_bufs_sub ..,
    binary_bufs_sub ..,
    binary_bufs_sub .., nullary_bufs_sub .., binary_bufs_sub .., nullary_bufs_sub .., binary_bufs_sub ..,
    unary_bufs_sub .., unary_bufs_sub .., binary_bufs_sub .., binary_bufs_sub .., nullary_bufs_sub ..,
    binary_bufs_sub .., nullary_bufs_sub .., unary_bufs_sub .., binary_bufs_sub .., unary_bufs_sub ..,
    nullary_bufs_sub .., binary_bufs_sub .., nullary_bufs_sub .., binary_bufs_sub .., binary_bufs_sub ..,
    nullary_bufs_sub .., nullary_bufs_sub ..,
    unary_bufs_sub .., binary_bufs_sub .., unary_bufs_sub .., binary_bufs_sub ..⟩

/-- From any memory with zero counters every weakly fair execution of @main terminates, and every buffer of the
    core ends at the fold of the operations' results over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduceAdd Host.exp Host.divf transpose in
/-- The fold at the result buffer is the staged term of the two float arguments: each operation's result read at
    its own buffer is its function applied to what its operand buffers held, at every other buffer what was
    there; the re-readings of a callee's operands at their own types are the identity. -/
theorem out_eq (V : Valuation τ sig (Elt F)) :
    after ops V (main_v35 : DevRef τ sig)
      = RefTerm.out (V (main_arg0 : DevRef τ sig)) (V (main_arg1 : DevRef τ sig)) := by
  after_results_simp
  rfl

/-- No operation writes an argument's buffer. -/
theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp

/-- The reference's run: from any memory with zero counters every weakly fair execution of @main terminates with
    the result buffer at the staged term of the two float arguments' launch contents, and the three argument
    buffers unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
        r.2.mem ((c.tc : Thread nD τ).loc main_v35) = RefTerm.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v35).trans (out_eq _), (h c main_arg0).trans (arg0_eq _),
      (h c main_arg1).trans (arg1_eq _), (h c main_arg2).trans (arg2_eq _)⟩)
    (run_main m ρ)

end Cert.ReferenceIdeal.RefRun

end
-- ==== Proof.RefValue.lean ====
/-
  The reference's result read at the ideal instance, stage by stage: each stage of the reference's term at an index
  is the plain formula over the extended reals that the shared mathematics names. The rows and the flat target are
  row-major re-readings; a sum of squares and a Gram entry are sums over the 524288 columns; the pairwise distance,
  the kernel, its total and its trace are read entry by entry; the result is the clamped score.
-/
import proofs.«137065_j56899726737831_1_alg».proof.Proof.RefTerm
import proofs.«137065_j56899726737831_1_alg».proof.Proof.Spec
import proofs.«137065_j56899726737831_1_alg».proof.Proof.Gen.ReferenceIdeal
import Idealize.ShloMosaic.Lib.ValueIdx
import Idealize.ShloMosaic.Lib.Pipeline.Value
import Idealize.ShloMosaic.Lib.ValueLayout
import Idealize.ShloMosaic.Lib.IdealHost
import Idealize.ShloMosaic.Lib.ValueIdxRank1
import Idealize.ShloMosaic.Lib.StableHlo.Predicate
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Facts₀ Cert.ReferenceIdeal.Facts
open Cert

variable [Cert.ReferenceIdeal.Facts]

/-! ## The two row-major re-readings -/

/-- Row i, column k of the samples read as 64 rows: the entry at (i, k / 128, k % 128). -/
theorem rows_apply (a0 : FVec Ideal S64x4096x128 .f32) (i : Fin 64) (k : Fin 524288) :
    RefTerm.rows (F := Ideal) a0 (ix2 i k) = Spec.rowsOf a0 i k := by
  unfold RefTerm.rows Spec.rowsOf
  refine shapeCast_apply _ _ _ _ ?_
  rw [Shape.rowMajor_val_two, Shape.rowMajor_val_three]
  show (i.val * 4096 + k.val / 128) * 128 + k.val % 128 = i.val * 524288 + k.val
  omega

/-- Column k of the target read as one row: the entry at (k / 128, k % 128). -/
theorem flat_apply (a1 : FVec Ideal S4096x128 .f32) (k : Fin 524288) :
    RefTerm.flat (F := Ideal) a1 (ix1 k) = Spec.flatOf a1 k := by
  unfold RefTerm.flat Spec.flatOf
  refine shapeCast_apply _ _ _ _ ?_
  rw [Shape.rowMajor_val_one, Shape.rowMajor_val_two]
  show k.val / 128 * 128 + k.val % 128 = k.val
  omega

/-! ## The sums along a row -/

/-- The row-reduction shape fact in the form that names the inserted coordinate. -/
theorem reduces_rows : S64x524288.Reduces [1] S64 := by decide

/-- Row i's index with column k inserted is (i, k). -/
theorem lift_rows (i : Fin 64) (k : Fin 524288) : reduces_rows.lift (ix1 i) k = ix2 i k :=
  Shape.idx_ext₂ rfl rfl

/-- A sum along the rows of a 64 x 524288 array from the zero word is, at row i, the sum over the columns. -/
theorem rowSum_apply (y : FVec Ideal S64x524288 .f32) (i : Fin 64) :
    Host.reduceAdd (F := Ideal) y (constant S_ .f32 0x00000000#32 : FVec Ideal S_ .f32)
        reducesTo_S64x524288_S64_d1 h_S_ (ix1 i)
      = ∑ k : Fin 524288, y (ix2 i k) := by
  rw [hostReduceAdd_apply]
  refine (Ideal.hostReduceAdd_single reducesTo_S64x524288_S64_d1 reduces_rows _ _ _).trans ?_
  rw [constant_apply, Ideal.ofBits_zero_f32, zero_add]
  exact Finset.sum_congr rfl fun k _ => congrArg y (lift_rows i k)

/-- Each row's sum of squares. -/
theorem sqNorm_apply (x : FVec Ideal S64x524288 .f32) (i : Fin 64) :
    RefTerm.sqNorm (F := Ideal) x (ix1 i) = ∑ k : Fin 524288, x (ix2 i k) * x (ix2 i k) := by
  unfold RefTerm.sqNorm RefTerm.zero
  exact rowSum_apply (mulf x x) i

/-! ## The Gram matrix: the rows against their own transpose, contracted over the columns -/

/-- The contraction's index set is the 524288 columns. -/
def colEquiv : dot_S64x524288_S524288x64_S64x64_1_0_0_1_n_n.contr.Idx ≃ Fin 524288 :=
  contrEquiv1 dot_S64x524288_S524288x64_S64x64_1_0_0_1_n_n 524288 rfl rfl

/-- The left operand's row is the result's row. -/
theorem lhs_axis0 (j : S64x64.Idx) (q : dot_S64x524288_S524288x64_S64x64_1_0_0_1_n_n.contr.Idx) :
    (dot_S64x524288_S524288x64_S64x64_1_0_0_1_n_n.lhsIdx j q 0).val = (j 0).val := rfl
/-- The left operand's column is the contraction coordinate. -/
theorem lhs_axis1 (j : S64x64.Idx) (q : dot_S64x524288_S524288x64_S64x64_1_0_0_1_n_n.contr.Idx) :
    (dot_S64x524288_S524288x64_S64x64_1_0_0_1_n_n.lhsIdx j q 1).val = (q ⟨0, by decide⟩).val := rfl
/-- The right operand's row is the contraction coordinate. -/
theorem rhs_axis0 (j : S64x64.Idx) (q : dot_S64x524288_S524288x64_S64x64_1_0_0_1_n_n.contr.Idx) :
    (dot_S64x524288_S524288x64_S64x64_1_0_0_1_n_n.rhsIdx j q 0).val = (q ⟨0, by decide⟩).val := rfl
/-- The right operand's column is the result's column. -/
theorem rhs_axis1 (j : S64x64.Idx) (q : dot_S64x524288_S524288x64_S64x64_1_0_0_1_n_n.contr.Idx) :
    (dot_S64x524288_S524288x64_S64x64_1_0_0_1_n_n.rhsIdx j q 1).val = (j 1).val := rfl

/-- The contraction index of column k has coordinate k. -/
theorem colEquiv_symm_val (k : Fin 524288) : ((colEquiv.symm k) ⟨0, by decide⟩).val = k.val :=
  contrEquiv1_symm_val _ _ _ _ k

/-- The left operand's index at result entry (i, j) and column k is (i, k). -/
theorem lhs_at (i j : Fin 64) (k : Fin 524288) :
    dot_S64x524288_S524288x64_S64x64_1_0_0_1_n_n.lhsIdx (ix2 i j) (colEquiv.symm k) = ix2 i k :=
  Shape.idx_ext₂ (lhs_axis0 _ _) ((lhs_axis1 _ _).trans (colEquiv_symm_val k))

/-- The transposed rows at the right operand's index of result entry (i, j) and column k: row j, column k. -/
theorem rhs_at (x : FVec Ideal S64x524288 .f32) (i j : Fin 64) (k : Fin 524288) :
    transpose S524288x64 [1, 0] x transposes_S64x524288_S524288x64_1_0
        (dot_S64x524288_S524288x64_S64x64_1_0_0_1_n_n.rhsIdx (ix2 i j) (colEquiv.symm k))
      = x (ix2 j k) :=
  transpose_apply _ _ _ _ (ix2 j k) fun b => match b with
    | ⟨0, _⟩ => ((rhs_axis0 (ix2 i j) (colEquiv.symm k)).trans (colEquiv_symm_val k)).symm
    | ⟨1, _⟩ => (rhs_axis1 (ix2 i j) (colEquiv.symm k)).symm

/-- The Gram matrix's entry (i, j): the sum over the columns of row i times row j. -/
theorem gramM_apply (x : FVec Ideal S64x524288 .f32) (i j : Fin 64) :
    RefTerm.gramM (F := Ideal) x (ix2 i j) = ∑ k : Fin 524288, x (ix2 i k) * x (ix2 j k) := by
  unfold RefTerm.gramM
  refine (Ideal.dotGeneral_apply _ _ _ _ _ _).trans ?_
  refine (Equiv.sum_comp colEquiv.symm _).symm.trans ?_
  exact Finset.sum_congr rfl fun k _ => congrArg₂ (· * ·) (congrArg x (lhs_at i j k)) (rhs_at x i j k)

/-! ## The pairwise distances and the kernel, entry by entry -/

/-- A vector spread down the columns (one value per row) reads the row's value. -/
theorem spreadRows_apply {α : Type} (s : S64.Idx → α) (i j : Fin 64) :
    broadcastInDim S64x64 ![0, 1] bcast_S64x1_S64x64_0_1 (broadcastInDim S64x1 ![0] bcast_S64_S64x1_0 s) (ix2 i j)
      = s (ix1 i) := by
  refine (broadcastInDim_apply _ _ _ (ix2 i j) (ix2 i (0 : Fin 1)) fun a => ?_).trans ?_
  · match a with
    | ⟨0, _⟩ => rfl
    | ⟨1, _⟩ => rfl
  · exact broadcastInDim_apply _ _ _ (ix2 i (0 : Fin 1)) (ix1 i) fun a => match a with | ⟨0, _⟩ => rfl

/-- A vector spread along the rows (one value per column) reads the column's value. -/
theorem spreadCols_apply {α : Type} (s : S64.Idx → α) (i j : Fin 64) :
    broadcastInDim S64x64 ![0, 1] bcast_S1x64_S64x64_0_1 (broadcastInDim S1x64 ![1] bcast_S64_S1x64_1 s) (ix2 i j)
      = s (ix1 j) := by
  refine (broadcastInDim_apply _ _ _ (ix2 i j) (ix2 (0 : Fin 1) j) fun a => ?_).trans ?_
  · match a with
    | ⟨0, _⟩ => rfl
    | ⟨1, _⟩ => rfl
  · exact broadcastInDim_apply _ _ _ (ix2 (0 : Fin 1) j) (ix1 j) fun a => match a with | ⟨0, _⟩ => rfl

/-- The pairwise squared distance from the norms and the Gram matrix, cut below at zero. -/
theorem sqDist_apply (s : FVec Ideal S64 .f32) (g : FVec Ideal S64x64 .f32) (i j : Fin 64) :
    RefTerm.sqDist (F := Ideal) s g (ix2 i j)
      = max ((s (ix1 i) + s (ix1 j)) - Ideal.ofBits .f32 0x40000000#32 * g (ix2 i j))
          (Ideal.ofBits .f32 0x00000000#32) := by
  unfold RefTerm.sqDist
  rw [maximumf_apply, subf_apply, addf_apply, mulf_apply, spreadRows_apply, spreadCols_apply,
    broadcastInDim_scalar_apply, broadcastInDim_scalar_apply, constant_apply, constant_apply]

/-- The radial kernel of a distance: the exponential of minus it. -/
theorem kernM_apply (d : FVec Ideal S64x64 .f32) (i j : Fin 64) :
    RefTerm.kernM (F := Ideal) d (ix2 i j) = Ideal.exp (Ideal.ofBits .f32 0xBF800000#32 * d (ix2 i j)) := by
  unfold RefTerm.kernM
  show Ideal.exp (mulf _ d (ix2 i j)) = _
  rw [mulf_apply, broadcastInDim_scalar_apply, constant_apply]

/-! ## The sum over all pairs, the diagonal's mask, and the sum over the diagonal -/

/-- A sum over both axes of a 64 x 64 array from the zero word is the double sum over rows and columns. -/
theorem pairSum_apply (y : FVec Ideal S64x64 .f32) :
    Host.reduceAdd (F := Ideal) y (constant S_ .f32 0x00000000#32 : FVec Ideal S_ .f32)
        reducesTo_S64x64_S_d0_1 h_S_ ix0
      = ∑ i : Fin 64, ∑ j : Fin 64, y (ix2 i j) := by
  rw [hostReduceAdd_apply]
  refine (Ideal.hostReduceAdd_total reducesTo_S64x64_S_d0_1 (fun b => b.elim0) _ _ _).trans ?_
  rw [constant_apply, Ideal.ofBits_zero_f32, zero_add]
  exact sum_idx2 y

/-- The kernel's sum over all pairs. -/
theorem total_apply (k : FVec Ideal S64x64 .f32) :
    RefTerm.total (F := Ideal) k ix0 = ∑ i : Fin 64, ∑ j : Fin 64, k (ix2 i j) := by
  unfold RefTerm.total
  exact pairSum_apply k

/-- The mask is set exactly on the diagonal: the row's and the column's number, as 32-bit words, agree only when equal. -/
theorem diagMask_apply (i j : Fin 64) : RefTerm.diagMask (ix2 i j) = 1#1 ↔ i = j := by
  unfold RefTerm.diagMask
  show IntOp.cmpi .eq (IntOp.addi (BitVec.ofNat 32 i.val) (0#32)) (BitVec.ofNat 32 j.val) = 1#1 ↔ i = j
  rw [StableHlo.Predicate.cmpi_eq_iff]
  unfold IntOp.addi
  rw [BitVec.add_zero]
  constructor
  · intro h
    have h' := congrArg BitVec.toNat h
    simp only [BitVec.toNat_ofNat] at h'
    have := i.isLt; have := j.isLt
    exact Fin.ext (by omega)
  · rintro rfl; rfl

/-- A select on the mask is the choice on "row equals column". -/
theorem select_diag {α : Type} (a b : α) (i j : Fin 64) :
    Scalar.select (RefTerm.diagMask (ix2 i j)) a b = if i = j then a else b := by
  by_cases h : i = j
  · rw [if_pos h, (diagMask_apply i j).mpr h, select_one]
  · rw [if_neg h, eq_zero_of_ne_one (fun e => h ((diagMask_apply i j).mp e)), select_zero]

/-- The kernel's sum over the diagonal. -/
theorem traceOf_apply (k : FVec Ideal S64x64 .f32) :
    RefTerm.traceOf (F := Ideal) k ix0 = ∑ i : Fin 64, k (ix2 i i) := by
  unfold RefTerm.traceOf
  refine (pairSum_apply _).trans ?_
  refine Finset.sum_congr rfl fun i _ => ?_
  have e : ∀ j : Fin 64,
      select RefTerm.diagMask k (broadcastInDim S64x64 ![] bcast_S_S64x64 (constant S_ .f32 0x00000000#32 : FVec Ideal S_ .f32)) (ix2 i j)
        = if i = j then k (ix2 i j) else 0 := fun j => by
    rw [select_apply, select_diag, broadcastInDim_scalar_apply, constant_apply, Ideal.ofBits_zero_f32]
  rw [Finset.sum_congr rfl fun j _ => e j, Finset.sum_ite_eq Finset.univ i, if_pos (Finset.mem_univ i)]

/-- A quarter of the kernel's sum off the diagonal, over 4032. -/
theorem crossT_apply (k : FVec Ideal S64x64 .f32) :
    RefTerm.crossT (F := Ideal) k ix0
      = Ideal.div (Ideal.ofBits .f32 0x3E800000#32
            * ((∑ i : Fin 64, ∑ j : Fin 64, k (ix2 i j)) - ∑ i : Fin 64, k (ix2 i i)))
          (Ideal.ofBits .f32 0x457C0000#32) := by
  unfold RefTerm.crossT
  rw [hostDivf_apply, mulf_apply, subf_apply, total_apply, traceOf_apply, constant_apply, constant_apply]

/-! ## The distance to the target and its kernel's mean -/

/-- The target row spread over the 64 rows reads the target's column. -/
theorem spreadTarget_apply {α : Type} (t : S524288.Idx → α) (i : Fin 64) (k : Fin 524288) :
    broadcastInDim S64x524288 ![0, 1] bcast_S1x524288_S64x524288_0_1
        (broadcastInDim S1x524288 ![1] bcast_S524288_S1x524288_1 t) (ix2 i k)
      = t (ix1 k) := by
  refine (broadcastInDim_apply _ _ _ (ix2 i k) (ix2 (0 : Fin 1) k) fun a => ?_).trans ?_
  · match a with
    | ⟨0, _⟩ => rfl
    | ⟨1, _⟩ => rfl
  · exact broadcastInDim_apply _ _ _ (ix2 (0 : Fin 1) k) (ix1 k) fun a => match a with | ⟨0, _⟩ => rfl

/-- Each row's sum of squared differences to the target. -/
theorem dist_apply (x : FVec Ideal S64x524288 .f32) (t : FVec Ideal S524288 .f32) (i : Fin 64) :
    RefTerm.dist (F := Ideal) x t (ix1 i)
      = ∑ k : Fin 524288, (x (ix2 i k) - t (ix1 k)) * (x (ix2 i k) - t (ix1 k)) := by
  unfold RefTerm.dist
  refine (rowSum_apply _ i).trans ?_
  refine Finset.sum_congr rfl fun k _ => ?_
  rw [mulf_apply, subf_apply, spreadTarget_apply]

/-- A sum over a 64-vector from the zero word is the sum over its coordinates. -/
theorem vecSum_apply (y : FVec Ideal S64 .f32) :
    Host.reduceAdd (F := Ideal) y (constant S_ .f32 0x00000000#32 : FVec Ideal S_ .f32)
        reducesTo_S64_S_d0 h_S_ ix0
      = ∑ i : Fin 64, y (ix1 i) := by
  rw [hostReduceAdd_apply]
  refine (Ideal.hostReduceAdd_total reducesTo_S64_S_d0 (fun b => b.elim0) _ _ _).trans ?_
  rw [constant_apply, Ideal.ofBits_zero_f32, zero_add]
  exact (Equiv.sum_comp (idxEquiv1 (n := 64)).symm y).symm

/-- The mean over the rows of the exponential of minus the distance. -/
theorem targetT_apply (d : FVec Ideal S64 .f32) :
    RefTerm.targetT (F := Ideal) d ix0
      = Ideal.div (∑ i : Fin 64, Ideal.exp (Ideal.ofBits .f32 0xBF800000#32 * d (ix1 i)))
          (Ideal.ofBits .f32 0x42800000#32) := by
  unfold RefTerm.targetT
  rw [hostDivf_apply, vecSum_apply, constant_apply]
  refine congrArg (fun s => Ideal.div s _) (Finset.sum_congr rfl fun i _ => ?_)
  show Ideal.exp (mulf _ d (ix1 i)) = _
  rw [mulf_apply, broadcastInDim_scalar_apply, constant_apply]

/-- The cut to [-10, 10]. -/
theorem clip_apply (s : FVec Ideal S_ .f32) :
    RefTerm.clip (F := Ideal) s ix0
      = min (Ideal.ofBits .f32 0x41200000#32) (max (Ideal.ofBits .f32 0xC1200000#32) (s ix0)) := rfl

/-! ## The result: the clamped score of the rows' Gram matrix and their distances to the target -/

/-- The kernel of the rows' pairwise distances is the shared kernel of their Gram matrix: the norms the reference
    sums separately are that matrix's diagonal. -/
theorem kern_rows (x : FVec Ideal S64x524288 .f32) (i j : Fin 64) :
    RefTerm.kernM (F := Ideal) (RefTerm.sqDist (RefTerm.sqNorm x) (RefTerm.gramM x)) (ix2 i j)
      = Spec.kern (Spec.gram fun i k => x (ix2 i k)) i j := by
  rw [kernM_apply, sqDist_apply, sqNorm_apply, sqNorm_apply, gramM_apply]
  rfl

/-- The rows of the re-read samples are the shared rows. -/
theorem rows_eq (a0 : FVec Ideal S64x4096x128 .f32) :
    (fun (i : Fin 64) (k : Fin 524288) => RefTerm.rows (F := Ideal) a0 (ix2 i k)) = Spec.rowsOf a0 :=
  funext fun i => funext fun k => rows_apply a0 i k

/-- Each row's distance to the target is the shared direct distance. -/
theorem dist_rows (a0 : FVec Ideal S64x4096x128 .f32) (a1 : FVec Ideal S4096x128 .f32) (i : Fin 64) :
    RefTerm.dist (F := Ideal) (RefTerm.rows a0) (RefTerm.flat a1) (ix1 i)
      = Spec.distDirect (Spec.rowsOf a0) (Spec.flatOf a1) i := by
  rw [dist_apply]
  unfold Spec.distDirect
  exact Finset.sum_congr rfl fun k _ => by rw [rows_apply, flat_apply]

/-- The reference's result at the ideal instance is the score of the Gram matrix and the direct distances. -/
theorem out_eq (a0 : FVec Ideal S64x4096x128 .f32) (a1 : FVec Ideal S4096x128 .f32) :
    RefTerm.out (F := Ideal) a0 a1
      = fun _ => Spec.score (Spec.gram (Spec.rowsOf a0)) (Spec.distDirect (Spec.rowsOf a0) (Spec.flatOf a1)) := by
  funext j
  rw [eq_ix0 j]
  unfold RefTerm.out
  rw [clip_apply, subf_apply, crossT_apply, targetT_apply]
  have hk : ∀ i j : Fin 64,
      RefTerm.kernM (F := Ideal) (RefTerm.sqDist (RefTerm.sqNorm (RefTerm.rows a0)) (RefTerm.gramM (RefTerm.rows a0))) (ix2 i j)
        = Spec.kern (Spec.gram (Spec.rowsOf a0)) i j := fun i j => by
    rw [kern_rows, rows_eq]
  simp only [hk, dist_rows]
  rfl

end Cert.ReferenceIdeal.RefValue

end
-- ==== Proof.Finite.lean ====
import proofs.«137065_j56899726737831_1_alg».proof.Pre_finite_inputs
import proofs.«137065_j56899726737831_1_alg».proof.Proof.Gen.Pre_finite_inputs
import Idealize.ShloMosaic.Lib.ReduceAll
import Idealize.ShloMosaic.Lib.ValueIdx
import Idealize.ShloMosaic.PureOps.Ideal.Laws

/-!
  From the precondition to "every entry is a real number".

  The precondition states, for each of the three inputs, that every entry has absolute value strictly below +∞,
  as a conjunction over all entries. At the ideal instance an entry is an extended real, its absolute value is
  `max x (-x)`, and the word `0x7F800000` denotes `⊤`. An extended real with `max x (-x) < ⊤` is neither `⊤` nor `⊥`,
  hence the image of a real number.
-/

namespace Cert.Finite

open Idealize.ShloMosaic Cert.Pre_finite_inputs

/-- The f32 word with all exponent bits set and a zero fraction denotes `+∞`. -/
theorem ofBits_inf : Ideal.ofBits .f32 0x7F800000#32 = (⊤ : EReal) := by
  simp [Ideal.ofBits, Ideal.ieee]

/-- An extended real whose absolute value `max x (-x)` lies strictly below `⊤` is a real number:
    at `⊤` the maximum is `⊤`, at `⊥` the negation is `⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One entry of the test `|x| < +∞`: if the comparison bit is set, the entry is a real number. -/
theorem real_of_test (x : Ideal .f32)
    (h : FloatOps.cmpf .olt (FloatOps.hostAbsf x) (FloatOps.ofBits (F := Ideal) .f32 0x7F800000#32) = 1#1) :
    ∃ r : ℝ, x = (r : EReal) := by
  refine real_of_abs_lt_top x ?_
  have h' : Ideal.cmp .olt (max (x : EReal) (-(x : EReal))) (Ideal.ofBits .f32 0x7F800000#32) = 1#1 := h
  rw [ofBits_inf] at h'
  unfold Ideal.cmp at h'
  by_contra hn
  simp [hn] at h'

/-- The rank-0 shape has exactly one index. -/
instance : Subsingleton S_.Idx := ⟨fun a b => funext fun d => d.elim0⟩

/-- The precondition makes every entry of the first two inputs a real number: the result bit is the conjunction of
    the three "all entries finite" bits; each of those is a conjunction over all entries of the entry's test. -/
theorem real_of_pre [Cert.Pre_finite_inputs.Facts] (a0 : FVec Ideal S64x4096x128 .f32) (a1 : FVec Ideal S4096x128 .f32)
    (a2 : FVec Ideal S4096 .f32)
    (h : Cert.Pre_finite_inputs.fn (F := Ideal) a0 a1 a2 = fun _ => 1#1) :
    (∀ j, ∃ r : ℝ, a0 j = (r : EReal)) ∧ (∀ j, ∃ r : ℝ, a1 j = (r : EReal)) := by
  have h0 := congrFun h ValueIdx.ix0
  dsimp only [Cert.Pre_finite_inputs.fn] at h0
  obtain ⟨h8, _⟩ := IntOp.andi_eq_one.1 h0
  obtain ⟨h3, h7⟩ := IntOp.andi_eq_one.1 h8
  refine ⟨fun j => ?_, fun j => ?_⟩
  · exact real_of_test (a0 j) (Host.reduce_andi_all _ _ _ _ _ h3 j)
  · exact real_of_test (a1 j) (Host.reduce_andi_all _ _ _ _ _ h7 j)

end Cert.Finite
-- ==== Proof.lean ====
/-
  The certificate's five claims.

  Both programs compute, over the extended reals, the same score of 64 sample rows `X` against a target row `t`
  (Proof/Spec.lean): the radial kernel `exp (-max (G i i + G j j - 2 G i j) 0)` of the rows' Gram matrix `G` summed
  off the diagonal, a quarter of it over 4032, minus the mean over the rows of `exp (-D i)`, clamped to [-10, 10].
  The kernel accumulates `G`, the products `⟨X i, t⟩` and `⟨t, t⟩` tile by tile in two halves of the columns, adds the
  halves, and takes `D i = max (G i i - 2 ⟨X i, t⟩ + ⟨t, t⟩) 0`; the reference takes `D i = ∑ k, (X i k - t k)²`
  directly. On finite inputs the two `D` agree: the square expands term by term over the reals, and a sum of squares
  is not negative, so the cut at zero is the identity (Proof/Algebra.lean). Everything else is the same operations
  in the same order, sums regrouped (sums of extended reals commute and associate).

  The frames of the two kernel programs are the generated ones; the reference's frame is its run with the value
  dropped; no rewrite was applied by the idealization, so there is nothing to preserve.
-/
import proofs.«137065_j56899726737831_1_alg».proof.Defs
import proofs.«137065_j56899726737831_1_alg».proof.Proof.Gen.Kernel
import proofs.«137065_j56899726737831_1_alg».proof.Proof.Gen.Kernel.Skeleton
import proofs.«137065_j56899726737831_1_alg».proof.Proof.Gen.Kernel.Launch
import proofs.«137065_j56899726737831_1_alg».proof.Proof.Gen.Kernel.Points
import proofs.«137065_j56899726737831_1_alg».proof.Proof.Gen.Kernel.Frame
import proofs.«137065_j56899726737831_1_alg».proof.Proof.Gen.KernelIdeal
import proofs.«137065_j56899726737831_1_alg».proof.Proof.Gen.KernelIdeal.Skeleton
import proofs.«137065_j56899726737831_1_alg».proof.Proof.Gen.KernelIdeal.Launch
import proofs.«137065_j56899726737831_1_alg».proof.Proof.Gen.KernelIdeal.Points
import proofs.«137065_j56899726737831_1_alg».proof.Proof.Gen.KernelIdeal.Frame
import proofs.«137065_j56899726737831_1_alg».proof.Proof.Gen.ReferenceIdeal
import proofs.«137065_j56899726737831_1_alg».proof.Proof.Gen.Pre_finite_inputs
import proofs.«137065_j56899726737831_1_alg».proof.Proof.KernelRun
import proofs.«137065_j56899726737831_1_alg».proof.Proof.KernelValue
import proofs.«137065_j56899726737831_1_alg».proof.Proof.RefRun
import proofs.«137065_j56899726737831_1_alg».proof.Proof.RefValue
import proofs.«137065_j56899726737831_1_alg».proof.Proof.Finite
import proofs.«137065_j56899726737831_1_alg».proof.Proof.Algebra
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the value dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The two idealized programs end with the same score: the kernel's with the expanded distances, the reference's with
    the direct ones, equal on the finite inputs the precondition admits. -/
theorem algebraic : Cert.algebraic_KernelIdeal_ReferenceIdeal := by
  intro m ρ m' ρ' hpre hagree
  refine ⟨fun c _ => Spec.score (Spec.gram (Cert.KernelIdeal.Value.X m c))
      (Spec.distExpanded (Cert.KernelIdeal.Value.X m c) (Cert.KernelIdeal.Value.T m c)), ?_, ?_⟩
  · exact (θ_run Cert.KernelIdeal.defs _ _).mono
      (fun _ h c => ⟨(h c).1.trans (Cert.KernelIdeal.Value.value m ρ c), (h c).2⟩)
      (Cert.KernelIdeal.Run.run_W4 (F := Ideal) m ρ)
  · refine (θ_run Cert.ReferenceIdeal.defs _ _).mono (fun _ h c => ⟨(h c).1.trans ?_, (h c).2⟩)
      (Cert.ReferenceIdeal.RefRun.run (F := Ideal) m' ρ')
    obtain ⟨hX, hT⟩ := Cert.Finite.real_of_pre _ _ _ (hpre c)
    rw [(hagree c).1, (hagree c).2.1, Cert.ReferenceIdeal.RefValue.out_eq]
    funext _
    refine congrArg (Spec.score _) (funext fun i => ?_)
    exact (Spec.distExpanded_eq_distDirect _ _ (fun i k => hX _) (fun k => hT _) i).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
